-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x128 : Shape := ⟨3, ![8, 2048, 128]⟩
abbrev S8x2048x2 : Shape := ⟨3, ![8, 2048, 2]⟩
abbrev S32x128x128 : Shape := ⟨3, ![32, 128, 128]⟩
abbrev S_ : Shape := ⟨0, ![]⟩

class Facts : Prop where
  bcast_S_S8x2048x128 : S_.BroadcastsInDim S8x2048x128 (![] : Fin 0 → Fin S8x2048x128.rank)
  reducesTo_S8x2048x128_S_d0_1_2 : S8x2048x128.ReducesTo [0, 1, 2] S_
  h_S_ : 0 < S_.numel
  bcast_S_S8x2048x2 : S_.BroadcastsInDim S8x2048x2 (![] : Fin 0 → Fin S8x2048x2.rank)
  reducesTo_S8x2048x2_S_d0_1_2 : S8x2048x2.ReducesTo [0, 1, 2] S_
  bcast_S_S32x128x128 : S_.BroadcastsInDim S32x128x128 (![] : Fin 0 → Fin S32x128x128.rank)
  reducesTo_S32x128x128_S_d0_1_2 : S32x128x128.ReducesTo [0, 1, 2] S_

variable [Facts]

def fn_part1 {F : FTy → Type} [FloatOps F] (main_arg1 : IVec S8x2048x2 32) (main_v13 : IVec S_ 1) (main_v15 : IVec S8x2048x2 1) (main_c_5 : IVec S_ 32) : IVec S_ 1 :=
  let main_v16 : IVec S8x2048x2 32 := broadcastInDim S8x2048x2 ![] bcast_S_S8x2048x2 main_c_5
  let main_v17 : IVec S8x2048x2 1 := cmpi .slt main_arg1 main_v16
  let main_v18 : IVec S8x2048x2 1 := andi main_v15 main_v17
  let main_c_6 : IVec S_ 1 := constantI S_ 1 1#1
  let main_v19 : IVec S_ 1 := (fun x v => Host.reduce IntOp.andi x v reducesTo_S8x2048x2_S_d0_1_2 h_S_) main_v18 main_c_6
  let main_v20 : IVec S_ 1 := andi main_v13 main_v19
  main_v20

def fn {F : FTy → Type} [FloatOps F] (main_arg0 : FVec F S8x2048x128 .f32) (main_arg1 : IVec S8x2048x2 32) (main_arg2 : FVec F S8x2048x2 .f32) (main_arg3 : FVec F S32x128x128 .f32) : IVec S_ 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  let main_c : IVec S_ 1 := constantI S_ 1 1#1
  let main_v3 : IVec S_ 1 := (fun x v => Host.reduce IntOp.andi x v reducesTo_S8x2048x128_S_d0_1_2 h_S_) main_v2 main_c
  let main_v4 : FVec F S8x2048x2 .f32 := Host.absf main_arg2
  let main_cst_0 : FVec F S_ .f32 := constant S_ .f32 0x7F800000#32
  let main_v5 : FVec F S8x2048x2 .f32 := broadcastInDim S8x2048x2 ![] bcast_S_S8x2048x2 main_cst_0
  let main_v6 : IVec S8x2048x2 1 := cmpf .olt main_v4 main_v5
  let main_c_1 : IVec S_ 1 := constantI S_ 1 1#1
  let main_v7 : IVec S_ 1 := (fun x v => Host.reduce IntOp.andi x v reducesTo_S8x2048x2_S_d0_1_2 h_S_) main_v6 main_c_1
  let main_v8 : IVec S_ 1 := andi main_v3 main_v7
  let main_v9 : FVec F S32x128x128 .f32 := Host.absf main_arg3
  let main_cst_2 : FVec F S_ .f32 := constant S_ .f32 0x7F800000#32
  let main_v10 : FVec F S32x128x128 .f32 := broadcastInDim S32x128x128 ![] bcast_S_S32x128x128 main_cst_2
  let main_v11 : IVec S32x128x128 1 := cmpf .olt main_v9 main_v10
  let main_c_3 : IVec S_ 1 := constantI S_ 1 1#1
  let main_v12 : IVec S_ 1 := (fun x v => Host.reduce IntOp.andi x v reducesTo_S32x128x128_S_d0_1_2 h_S_) main_v11 main_c_3
  let main_v13 : IVec S_ 1 := andi main_v8 main_v12
  let main_c_4 : IVec S_ 32 := constantI S_ 32 0#32
  let main_v14 : IVec S8x2048x2 32 := broadcastInDim S8x2048x2 ![] bcast_S_S8x2048x2 main_c_4
  let main_v15 : IVec S8x2048x2 1 := cmpi .sge main_arg1 main_v14
  let main_c_5 : IVec S_ 32 := constantI S_ 32 32#32
  fn_part1 (F := F) main_arg1 main_v13 main_v15 main_c_5
-- ==== Kernel.lean ====
abbrev S8x2048x128 : Shape := ⟨3, ![8, 2048, 128]⟩
abbrev S8x2048x2 : Shape := ⟨3, ![8, 2048, 2]⟩
abbrev S32x128x128 : Shape := ⟨3, ![32, 128, 128]⟩
abbrev S_ : Shape := ⟨0, ![]⟩
abbrev S32 : Shape := ⟨1, ![32]⟩
abbrev S32x1x1 : Shape := ⟨3, ![32, 1, 1]⟩
abbrev S128x32x128 : Shape := ⟨3, ![128, 32, 128]⟩
abbrev S128x4096 : Shape := ⟨2, ![128, 4096]⟩
abbrev S16384x128 : Shape := ⟨2, ![16384, 128]⟩
abbrev S8x2048x2x1 : Shape := ⟨4, ![8, 2048, 2, 1]⟩
abbrev S1x1x1x32 : Shape := ⟨4, ![1, 1, 1, 32]⟩
abbrev S8x2048x2x32 : Shape := ⟨4, ![8, 2048, 2, 32]⟩
abbrev S8x2048x32 : Shape := ⟨3, ![8, 2048, 32]⟩
abbrev S16384x32 : Shape := ⟨2, ![16384, 32]⟩
abbrev S2048x128 : Shape := ⟨2, ![2048, 128]⟩
abbrev S2048x32 : Shape := ⟨2, ![2048, 32]⟩
abbrev S128x512 : Shape := ⟨2, ![128, 512]⟩
abbrev S2048x512 : Shape := ⟨2, ![2048, 512]⟩
abbrev S2048x4x128 : Shape := ⟨3, ![2048, 4, 128]⟩
abbrev S2048x4 : Shape := ⟨2, ![2048, 4]⟩
abbrev S2048x4x1 : Shape := ⟨3, ![2048, 4, 1]⟩

abbrev nBuf : Space → Nat
  | .hbm => 51
  | .vmem => 7
  | .smem => 0
  | _ => 0

abbrev bufTy : (tb : Table) → Fin (tcTables nBuf tb) → BufTy
  | .hbm, ⟨0, _⟩ => ⟨S8x2048x128, .f32⟩
  | .hbm, ⟨1, _⟩ => ⟨S8x2048x2, .i32⟩
  | .hbm, ⟨2, _⟩ => ⟨S8x2048x2, .f32⟩
  | .hbm, ⟨3, _⟩ => ⟨S32x128x128, .f32⟩
  | .hbm, ⟨4, _⟩ => ⟨S32x128x128, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32x1x1, .f32⟩
  | .hbm, ⟨14, _⟩ => ⟨S32x128x128, .f32⟩
  | .hbm, ⟨15, _⟩ => ⟨S32x128x128, .f32⟩
  | .hbm, ⟨16, _⟩ => ⟨S32x128x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x128x128, .f32⟩
  | .hbm, ⟨21, _⟩ => ⟨S32x128x128, .f32⟩
  | .hbm, ⟨22, _⟩ => ⟨S_, .f32⟩
  | .hbm, ⟨23, _⟩ => ⟨S32x128x128, .f32⟩
  | .hbm, ⟨24, _⟩ => ⟨S32x128x128, .f32⟩
  | .hbm, ⟨25, _⟩ => ⟨S32x1x1, .f32⟩
  | .hbm, ⟨26, _⟩ => ⟨S32x128x128, .f32⟩
  | .hbm, ⟨27, _⟩ => ⟨S32x128x128, .f32⟩
  | .hbm, ⟨28, _⟩ => ⟨S128x32x128, .f32⟩
  | .hbm, ⟨29, _⟩ => ⟨S128x4096, .f32⟩
  | .hbm, ⟨30, _⟩ => ⟨S128x4096, .bf16⟩
  | .hbm, ⟨31, _⟩ => ⟨S16384x128, .f32⟩
  | .hbm, ⟨32, _⟩ => ⟨S16384x128, .bf16⟩
  | .hbm, ⟨33, _⟩ => ⟨S32, .i32⟩
  | .hbm, ⟨34, _⟩ => ⟨S8x2048x2x1, .i32⟩
  | .hbm, ⟨35, _⟩ => ⟨S1x1x1x32, .i32⟩
  | .hbm, ⟨36, _⟩ => ⟨S8x2048x2x32, .i32⟩
  | .hbm, ⟨37, _⟩ => ⟨S8x2048x2x32, .i32⟩
  | .hbm, ⟨38, _⟩ => ⟨S8x2048x2x32, .i1⟩
  | .hbm, ⟨39, _⟩ => ⟨S8x2048x2x32, .f32⟩
  | .hbm, ⟨40, _⟩ => ⟨S8x2048x2x1, .f32⟩
  | .hbm, ⟨41, _⟩ => ⟨S8x2048x2x32, .f32⟩
  | .hbm, ⟨42, _⟩ => ⟨S8x2048x2x32, .f32⟩
  | .hbm, ⟨43, _⟩ => ⟨S_, .f32⟩
  | .hbm, ⟨44, _⟩ => ⟨S8x2048x32, .f32⟩
  | .hbm, ⟨45, _⟩ => ⟨S_, .f32⟩
  | .hbm, ⟨46, _⟩ => ⟨S8x2048x32, .f32⟩
  | .hbm, ⟨47, _⟩ => ⟨S8x2048x32, .f32⟩
  | .hbm, ⟨48, _⟩ => ⟨S16384x32, .f32⟩
  | .hbm, ⟨49, _⟩ => ⟨S16384x128, .f32⟩
  | .hbm, ⟨50, _⟩ => ⟨S8x2048x128, .f32⟩
  | .local _ .vmem, ⟨0, _⟩ => ⟨S2048x128, .bf16⟩
  | .local _ .vmem, ⟨1, _⟩ => ⟨S2048x128, .bf16⟩
  | .local _ .vmem, ⟨2, _⟩ => ⟨S128x4096, .bf16⟩
  | .local _ .vmem, ⟨3, _⟩ => ⟨S2048x32, .f32⟩
  | .local _ .vmem, ⟨4, _⟩ => ⟨S2048x32, .f32⟩
  | .local _ .vmem, ⟨5, _⟩ => ⟨S2048x128, .f32⟩
  | .local _ .vmem, ⟨6, _⟩ => ⟨S2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S32x128x128_S32_d1_2 : S32x128x128.ReducesTo [1, 2] S32
  h_S_ : 0 < S_.numel
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x128x128_0_1_2 : S32x1x1.BroadcastsInDim S32x128x128 (![0, 1, 2] : Fin 3 → Fin S32x128x128.rank)
  bcast_S_S32x128x128 : S_.BroadcastsInDim S32x128x128 (![] : Fin 0 → Fin S32x128x128.rank)
  transposes_S32x128x128_S128x32x128_2_0_1 : S32x128x128.Transposes [2, 0, 1] S128x32x128
  shapeCasts_S128x32x128_S128x4096 : S128x32x128.ShapeCasts S128x4096
  bitsLt_bf16_f32 : FTy.bits .bf16 < FTy.bits .f32
  shapeCasts_S8x2048x128_S16384x128 : S8x2048x128.ShapeCasts S16384x128
  bcast_S8x2048x2_S8x2048x2x1_0_1_2 : S8x2048x2.BroadcastsInDim S8x2048x2x1 (![0, 1, 2] : Fin 3 → Fin S8x2048x2x1.rank)
  bcast_S32_S1x1x1x32_3 : S32.BroadcastsInDim S1x1x1x32 (![3] : Fin 1 → Fin S1x1x1x32.rank)
  bcast_S8x2048x2x1_S8x2048x2x32_0_1_2_3 : S8x2048x2x1.BroadcastsInDim S8x2048x2x32 (![0, 1, 2, 3] : Fin 4 → Fin S8x2048x2x32.rank)
  bcast_S1x1x1x32_S8x2048x2x32_0_1_2_3 : S1x1x1x32.BroadcastsInDim S8x2048x2x32 (![0, 1, 2, 3] : Fin 4 → Fin S8x2048x2x32.rank)
  reducesTo_S8x2048x2x32_S8x2048x32_d2 : S8x2048x2x32.ReducesTo [2] S8x2048x32
  bcast_S_S8x2048x32 : S_.BroadcastsInDim S8x2048x32 (![] : Fin 0 → Fin S8x2048x32.rank)
  shapeCasts_S8x2048x32_S16384x32 : S8x2048x32.ShapeCasts S16384x32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x4096_S128x512_0_0 : ∀ a, (![0, 0] : Fin 2 → Nat) a + S128x512.size a ≤ S128x4096.size a
  h_S128x512 : 0 < S128x512.numel
  shapeCasts_S128x512_S128x512 : S128x512.ShapeCasts S128x512
  shapeCasts_S2048x512_S2048x4x128 : S2048x512.ShapeCasts S2048x4x128
  inb_S2048x32_S2048x4_0_0 : ∀ a, (![0, 0] : Fin 2 → Nat) a + S2048x4.size a ≤ S2048x32.size a
  h_S2048x4 : 0 < S2048x4.numel
  shapeCasts_S2048x4_S2048x4 : S2048x4.ShapeCasts S2048x4
  shapeCasts_S2048x4_S2048x4x1 : S2048x4.ShapeCasts S2048x4x1
  broadcasts_S2048x4x1_S2048x4x128 : S2048x4x1.Broadcasts S2048x4x128
  reduces_S2048x4x128_S2048x128 : S2048x4x128.Reduces [1] S2048x128
  inb_S128x4096_S128x512_0_512 : ∀ a, (![0, 512] : Fin 2 → Nat) a + S128x512.size a ≤ S128x4096.size a
  inb_S2048x32_S2048x4_0_4 : ∀ a, (![0, 4] : Fin 2 → Nat) a + S2048x4.size a ≤ S2048x32.size a
  inb_S128x4096_S128x512_0_1024 : ∀ a, (![0, 1024] : Fin 2 → Nat) a + S128x512.size a ≤ S128x4096.size a
  inb_S2048x32_S2048x4_0_8 : ∀ a, (![0, 8] : Fin 2 → Nat) a + S2048x4.size a ≤ S2048x32.size a
  inb_S128x4096_S128x512_0_1536 : ∀ a, (![0, 1536] : Fin 2 → Nat) a + S128x512.size a ≤ S128x4096.size a
  inb_S2048x32_S2048x4_0_12 : ∀ a, (![0, 12] : Fin 2 → Nat) a + S2048x4.size a ≤ S2048x32.size a
  inb_S128x4096_S128x512_0_2048 : ∀ a, (![0, 2048] : Fin 2 → Nat) a + S128x512.size a ≤ S128x4096.size a
  inb_S2048x32_S2048x4_0_16 : ∀ a, (![0, 16] : Fin 2 → Nat) a + S2048x4.size a ≤ S2048x32.size a
  inb_S128x4096_S128x512_0_2560 : ∀ a, (![0, 2560] : Fin 2 → Nat) a + S128x512.size a ≤ S128x4096.size a
  inb_S2048x32_S2048x4_0_20 : ∀ a, (![0, 20] : Fin 2 → Nat) a + S2048x4.size a ≤ S2048x32.size a
  inb_S128x4096_S128x512_0_3072 : ∀ a, (![0, 3072] : Fin 2 → Nat) a + S128x512.size a ≤ S128x4096.size a
  inb_S2048x32_S2048x4_0_24 : ∀ a, (![0, 24] : Fin 2 → Nat) a + S2048x4.size a ≤ S2048x32.size a
  inb_S128x4096_S128x512_0_3584 : ∀ a, (![0, 3584] : Fin 2 → Nat) a + S128x512.size a ≤ S128x4096.size a
  inb_S2048x32_S2048x4_0_28 : ∀ a, (![0, 28] : Fin 2 → Nat) a + S2048x4.size a ≤ S2048x32.size a
  shapeCasts_S16384x128_S8x2048x128 : S16384x128.ShapeCasts S8x2048x128
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S16384x128.size a
  hwx0_0 : ∀ i : grid0.Coords, EltTy.bits .bf16 = 32 ∨ (Rect.block (s := S16384x128) S2048x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4096.size a ≤ S128x4096.size a
  hwx0_1 : ∀ i : grid0.Coords, EltTy.bits .bf16 = 32 ∨ (Rect.block (s := S128x4096) S128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x32.size a ≤ S16384x32.size a
  hwx0_2 : ∀ i : grid0.Coords, EltTy.bits .f32 = 32 ∨ (Rect.block (s := S16384x32) S2048x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S16384x128.size a
  hwx0_3 : ∀ i : grid0.Coords, EltTy.bits .f32 = 32 ∨ (Rect.block (s := S16384x128) S2048x128.size (cc0_transform_3 i) (hinb0_3 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_v18) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2048x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v33) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x128 : Shape := ⟨3, ![8, 2048, 128]⟩
abbrev S8x2048x2 : Shape := ⟨3, ![8, 2048, 2]⟩
abbrev S32x128x128 : Shape := ⟨3, ![32, 128, 128]⟩
abbrev S_ : Shape := ⟨0, ![]⟩
abbrev S32 : Shape := ⟨1, ![32]⟩
abbrev S32x1x1 : Shape := ⟨3, ![32, 1, 1]⟩
abbrev S8x2048x32x128 : Shape := ⟨4, ![8, 2048, 32, 128]⟩
abbrev S8x2048x2x1 : Shape := ⟨4, ![8, 2048, 2, 1]⟩
abbrev S1 : Shape := ⟨1, ![1]⟩
abbrev S1x1x1x1 : Shape := ⟨4, ![1, 1, 1, 1]⟩
abbrev S8x2048x2x128 : Shape := ⟨4, ![8, 2048, 2, 128]⟩

abbrev nBuf : Space → Nat
  | .hbm => 68
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S8x2048x2, .i32⟩
  | .hbm, ⟨2, _⟩ => ⟨S8x2048x2, .f32⟩
  | .hbm, ⟨3, _⟩ => ⟨S32x128x128, .f32⟩
  | .hbm, ⟨4, _⟩ => ⟨S32x128x128, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32x1x1, .f32⟩
  | .hbm, ⟨14, _⟩ => ⟨S32x128x128, .f32⟩
  | .hbm, ⟨15, _⟩ => ⟨S32x128x128, .f32⟩
  | .hbm, ⟨16, _⟩ => ⟨S32x128x128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S32x128x128, .f32⟩
  | .hbm, ⟨21, _⟩ => ⟨S32x128x128, .f32⟩
  | .hbm, ⟨22, _⟩ => ⟨S_, .f32⟩
  | .hbm, ⟨23, _⟩ => ⟨S32x128x128, .f32⟩
  | .hbm, ⟨24, _⟩ => ⟨S32x128x128, .f32⟩
  | .hbm, ⟨25, _⟩ => ⟨S32x128x128, .f32⟩
  | .hbm, ⟨26, _⟩ => ⟨S32x128x128, .f32⟩
  | .hbm, ⟨27, _⟩ => ⟨S32x1x1, .f32⟩
  | .hbm, ⟨28, _⟩ => ⟨S32x128x128, .f32⟩
  | .hbm, ⟨29, _⟩ => ⟨S32x128x128, .f32⟩
  | .hbm, ⟨30, _⟩ => ⟨S8x2048x32x128, .f32⟩
  | .hbm, ⟨31, _⟩ => ⟨S_, .f32⟩
  | .hbm, ⟨32, _⟩ => ⟨S8x2048x128, .f32⟩
  | .hbm, ⟨33, _⟩ => ⟨S8x2048x2x1, .i32⟩
  | .hbm, ⟨34, _⟩ => ⟨S_, .i32⟩
  | .hbm, ⟨35, _⟩ => ⟨S8x2048x2x1, .i32⟩
  | .hbm, ⟨36, _⟩ => ⟨S8x2048x2x1, .i1⟩
  | .hbm, ⟨37, _⟩ => ⟨S_, .i32⟩
  | .hbm, ⟨38, _⟩ => ⟨S8x2048x2x1, .i32⟩
  | .hbm, ⟨39, _⟩ => ⟨S8x2048x2x1, .i32⟩
  | .hbm, ⟨40, _⟩ => ⟨S8x2048x2x1, .i32⟩
  | .hbm, ⟨41, _⟩ => ⟨S1, .i32⟩
  | .hbm, ⟨42, _⟩ => ⟨S_, .i32⟩
  | .hbm, ⟨43, _⟩ => ⟨S8x2048x2x1, .i32⟩
  | .hbm, ⟨44, _⟩ => ⟨S8x2048x2x1, .i1⟩
  | .hbm, ⟨45, _⟩ => ⟨S1x1x1x1, .i32⟩
  | .hbm, ⟨46, _⟩ => ⟨S8x2048x2x1, .i32⟩
  | .hbm, ⟨47, _⟩ => ⟨S8x2048x2x1, .i1⟩
  | .hbm, ⟨48, _⟩ => ⟨S8x2048x2x1, .i1⟩
  | .hbm, ⟨49, _⟩ => ⟨S_, .i1⟩
  | .hbm, ⟨50, _⟩ => ⟨S8x2048x2, .i1⟩
  | .hbm, ⟨51, _⟩ => ⟨S8x2048x2x128, .f32⟩
  | .hbm, ⟨52, _⟩ => ⟨S8x2048x2x128, .i1⟩
  | .hbm, ⟨53, _⟩ => ⟨S_, .f32⟩
  | .hbm, ⟨54, _⟩ => ⟨S8x2048x2x128, .f32⟩
  | .hbm, ⟨55, _⟩ => ⟨S8x2048x2x128, .f32⟩
  | .hbm, ⟨56, _⟩ => ⟨S8x2048x2x1, .f32⟩
  | .hbm, ⟨57, _⟩ => ⟨S8x2048x2x128, .f32⟩
  | .hbm, ⟨58, _⟩ => ⟨S8x2048x2x128, .f32⟩
  | .hbm, ⟨59, _⟩ => ⟨S_, .f32⟩
  | .hbm, ⟨60, _⟩ => ⟨S8x2048x128, .f32⟩
  | .hbm, ⟨61, _⟩ => ⟨S_, .f32⟩
  | .hbm, ⟨62, _⟩ => ⟨S8x2048x128, .f32⟩
  | .hbm, ⟨63, _⟩ => ⟨S8x2048x128, .f32⟩
  | .hbm, ⟨64, _⟩ => ⟨S_, .f32⟩
  | .hbm, ⟨65, _⟩ => ⟨S8x2048x128, .f32⟩
  | .hbm, ⟨66, _⟩ => ⟨S8x2048x128, .f32⟩
  | .hbm, ⟨67, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_c_2 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_c_3 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_5 : Ref sig .tc := ⟨.hbm, 59, rfl⟩
abbrev main_v23 : Ref sig .tc := ⟨.hbm, 60, rfl⟩
abbrev main_cst_6 : Ref sig .tc := ⟨.hbm, 61, rfl⟩
abbrev main_v24 : Ref sig .tc := ⟨.hbm, 62, rfl⟩
abbrev main_v25 : Ref sig .tc := ⟨.hbm, 63, rfl⟩
abbrev main_cst_7 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩

abbrev nD : Nat := 1
abbrev τ : Topo := Topo.v7x

variable {F : FTy → Type} [FloatOps F]

class Facts₀ : Prop where
  reducesTo_S32x128x128_S32_d1_2 : S32x128x128.ReducesTo [1, 2] S32
  h_S_ : 0 < S_.numel
  bcast_S_S32 : S_.BroadcastsInDim S32 (![] : Fin 0 → Fin S32.rank)
  bcast_S32_S32x1x1_0 : S32.BroadcastsInDim S32x1x1 (![0] : Fin 1 → Fin S32x1x1.rank)
  bcast_S32x1x1_S32x128x128_0_1_2 : S32x1x1.BroadcastsInDim S32x128x128 (![0, 1, 2] : Fin 3 → Fin S32x128x128.rank)
  bcast_S_S32x128x128 : S_.BroadcastsInDim S32x128x128 (![] : Fin 0 → Fin S32x128x128.rank)
  reducesTo_S8x2048x32x128_S8x2048x128_d2 : S8x2048x32x128.ReducesTo [2] S8x2048x128
  bcast_S8x2048x2_S8x2048x2x1_0_1_2 : S8x2048x2.BroadcastsInDim S8x2048x2x1 (![0, 1, 2] : Fin 3 → Fin S8x2048x2x1.rank)
  bcast_S_S8x2048x2x1 : S_.BroadcastsInDim S8x2048x2x1 (![] : Fin 0 → Fin S8x2048x2x1.rank)
  bcast_S1_S1x1x1x1_3 : S1.BroadcastsInDim S1x1x1x1 (![3] : Fin 1 → Fin S1x1x1x1.rank)
  bcast_S1x1x1x1_S8x2048x2x1_0_1_2_3 : S1x1x1x1.BroadcastsInDim S8x2048x2x1 (![0, 1, 2, 3] : Fin 4 → Fin S8x2048x2x1.rank)
  reducesTo_S8x2048x2x1_S8x2048x2_d3 : S8x2048x2x1.ReducesTo [3] S8x2048x2
  bcast_S8x2048x2_S8x2048x2x128_0_1_2 : S8x2048x2.BroadcastsInDim S8x2048x2x128 (![0, 1, 2] : Fin 3 → Fin S8x2048x2x128.rank)
  bcast_S_S8x2048x2x128 : S_.BroadcastsInDim S8x2048x2x128 (![] : Fin 0 → Fin S8x2048x2x128.rank)
  bcast_S8x2048x2x1_S8x2048x2x128_0_1_2_3 : S8x2048x2x1.BroadcastsInDim S8x2048x2x128 (![0, 1, 2, 3] : Fin 4 → Fin S8x2048x2x128.rank)
  reducesTo_S8x2048x2x128_S8x2048x128_d2 : S8x2048x2x128.ReducesTo [2] S8x2048x128
  bcast_S_S8x2048x128 : S_.BroadcastsInDim S8x2048x128 (![] : Fin 0 → Fin S8x2048x128.rank)
  dot_S8x2048x128_S32x128x128_S8x2048x32x128_2_2_01_01_n_n_wf : DotDims.WF S8x2048x128 S32x128x128 S8x2048x32x128 [2] [2] [0, 1] [0, 1] [] []
  gather_S8x2048x32x128_S8x2048x2x1_S8x2048x2x128_3_2_01_01_2_3_111128_wf : GatherDims.WF S8x2048x32x128 S8x2048x2x1 S8x2048x2x128 [3] [2] [0, 1] [2] [0, 1] 3 ![1, 1, 1, 128]

variable [Facts₀]

def dot_S8x2048x128_S32x128x128_S8x2048x32x128_2_2_01_01_n_n : DotDims S8x2048x128 S32x128x128 S8x2048x32x128 where
  lhsContracting := [2]
  rhsContracting := [2]
  lhsNonContracting := [0, 1]
  rhsNonContracting := [0, 1]
  lhsBatch := []
  rhsBatch := []
  wf := dot_S8x2048x128_S32x128x128_S8x2048x32x128_2_2_01_01_n_n_wf
def gather_S8x2048x32x128_S8x2048x2x1_S8x2048x2x128_3_2_01_01_2_3_111128 : GatherDims S8x2048x32x128 S8x2048x2x1 S8x2048x2x128 where
  offsetDims := [3]
  collapsedSliceDims := [2]
  operandBatchingDims := [0, 1]
  startIndicesBatchingDims := [0, 1]
  startIndexMap := [2]
  indexVectorDim := 3
  sliceSizes := ![1, 1, 1, 128]
  wf := gather_S8x2048x32x128_S8x2048x2x1_S8x2048x2x128_3_2_01_01_2_3_111128_wf

class Facts : Prop extends Facts₀ where

variable [Facts]
-- ==== Proof.KerBody.lean ====
/- The kernel body's result at one entry.

   The body holds a token tile x0 (2048 tokens × 128 features), the slab x1 of all 32 operators side by side
   (128 features × 4096 columns, operator n in columns 128 n … 128 n + 127) and the tile's routing weights x2
   (2048 × 32). It walks the operators in eight groups of four: one matrix product of the tile with the group's
   512 columns, split into four 128-column images, each weighted by its routing column and summed, the eight group
   sums added in order onto zero. At token r and feature o this is the sum over all 32 operators n of the routing
   weight x2 (r, n) times the contraction of token r with column 128 n + o of the slab: the grouping only
   re-associates a finite sum. -/
import proofs.«430450_j5111011082884_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

namespace Cert.Moe.Ker

open Idealize.ShloMosaic Idealize.ShloMosaic.ValueIdx Cert.KernelIdeal Cert.KernelIdeal.Gen
open scoped BigOperators

/-- Column of the slab that holds output feature o of operator n. -/
def col (n : Fin 32) (o : Fin 128) : Fin 4096 := ⟨128 * n.val + o.val, by have := n.isLt; have := o.isLt; omega⟩

/-! ## The matrix product of a tile with a 512-column slab slice, at an entry -/

theorem lhs_axis0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_axis1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs_axis0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs_axis1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The product of a 2048×128 tile with a 128×512 slab slice, accumulated onto zero, at row `r` and column `c`:
    the contraction of row `r` of the tile with column `c` of the slice. -/
theorem mm_apply (y : FVec Ideal S2048x128 .bf16) (w : FVec Ideal S128x512 .bf16) (r : Fin 2048) (c : Fin 512) :
    matmul dot_S2048x128_S128x512_S2048x512_1_0_0_1_n_n none y w (constant (F := Ideal) S2048x512 .f32 0x00000000#32) (ix2 r c)
      = ∑ d : Fin 128, y (ix2 r d) * w (ix2 d c) := by
  refine (Ideal.matmul_constant_zero_apply dot_S2048x128_S128x512_S2048x512_1_0_0_1_n_n none y w (ix2 r c)).trans ?_
  rw [← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 r c) ((ValueIdx.contrEquiv1 dot_S2048x128_S128x512_S2048x512_1_0_0_1_n_n 128 rfl rfl).symm k) = ix2 r k := funext fun a => Fin.ext (by
    match a with
    | ⟨0, _⟩ => exact lhs_axis0 _ _
    | ⟨1, _⟩ => exact (lhs_axis1 _ _).trans hk)
  have er : dot_S2048x128_S128x512_S2048x512_1_0_0_1_n_n.rhsIdx (ix2 r c) ((ValueIdx.contrEquiv1 dot_S2048x128_S128x512_S2048x512_1_0_0_1_n_n 128 rfl rfl).symm k) = ix2 k c := funext fun a => Fin.ext (by
    match a with
    | ⟨0, _⟩ => exact (rhs_axis0 _ _).trans hk
    | ⟨1, _⟩ => exact rhs_axis1 _ _)
  rw [el, er]

/-! ## One group of four operators -/

/-- Column, within a group's 512 columns, of output feature `o` of the group's `j`-th operator. -/
def sub (j : Fin 4) (o : Fin 128) : Fin 512 := ⟨128 * j.val + o.val, by have := j.isLt; have := o.isLt; omega⟩

/-- The lane sum over the middle axis of a 2048×4×128 array, at token `r` and feature `o`: the four entries
    `(r, j, o)`. -/
theorem red_apply (src : FVec Ideal S2048x4x128 .f32) (hφ : FKind.Formats .f32)
    (hacc : (0x00000000#32 : BitVec 32) = FKind.add.neutral .f32 hφ) (r : Fin 2048) (o : Fin 128) :
    multiReduction (F := Ideal) .add [1] S2048x128 src 0x00000000#32 reduces_S2048x4x128_S2048x128 hφ hacc (ix2 r o)
      = ∑ j : Fin 4, src (ix3 r j o) := by
  refine (Ideal.multiReduction_add_single src 0x00000000#32 reduces_S2048x4x128_S2048x128 hφ hacc (ix2 r o)).trans ?_
  refine Finset.sum_congr rfl fun j _ => congrArg src (funext fun a => Fin.ext ?_)
  match a with
  | ⟨0, _⟩ => rfl
  | ⟨1, _⟩ => rfl
  | ⟨2, _⟩ => rfl

/-- A group's routing weights, made a column per operator and repeated along the features, at `(r, j, o)`: the
    weight of token `r` for the group's `j`-th operator. -/
theorem bcast_apply (a : FVec Ideal S2048x4 .f32) (r : Fin 2048) (j : Fin 4) (o : Fin 128) :
    broadcastTo S2048x4x128 (shapeCast S2048x4x1 (shapeCast S2048x4 a shapeCasts_S2048x4_S2048x4) shapeCasts_S2048x4_S2048x4x1)
        broadcasts_S2048x4x1_S2048x4x128 (ix3 r j o) = a (ix2 r j) := by
  rw [shapeCast_self]
  refine (broadcastTo_apply _ broadcasts_S2048x4x1_S2048x4x128 (ix3 r j o) (ix3 r j (0 : Fin 1)) ?_).trans ?_
  · intro ax
    match ax with
    | ⟨0, _⟩ => show r.val = if (2048 : Nat) = 1 then 0 else r.val; rw [if_neg (by decide)]
    | ⟨1, _⟩ => show j.val = if (4 : Nat) = 1 then 0 else j.val; rw [if_neg (by decide)]
    | ⟨2, _⟩ => show 0 = if (1 : Nat) = 1 then 0 else o.val; rw [if_pos rfl]
  · refine shapeCast_apply a _ (ix3 r j (0 : Fin 1)) (ix2 r j) ?_
    rw [Shape.rowMajor_val_two, Shape.rowMajor_val_three]
    show r.val * 4 + j.val = (r.val * 4 + j.val) * 1 + 0
    omega

/-- A 2048×512 array seen as 2048×4×128, at `(r, j, o)`: the entry at row `r`, column `128 j + o`. -/
theorem cast_apply (M : FVec Ideal S2048x512 .f32) (r : Fin 2048) (j : Fin 4) (o : Fin 128) :
    shapeCast S2048x4x128 M shapeCasts_S2048x512_S2048x4x128 (ix3 r j o) = M (ix2 r (sub j o)) := by
  refine shapeCast_apply M _ (ix3 r j o) (ix2 r (sub j o)) ?_
  rw [Shape.rowMajor_val_two, Shape.rowMajor_val_three]
  show r.val * 512 + (128 * j.val + o.val) = (r.val * 4 + j.val) * 128 + o.val
  omega

/-- What one group adds: the product of the tile `y` with the group's slab slice `w`, cut into four 128-column images,
    each weighted by its routing column of `a`, the four summed. -/
def grp (y : FVec Ideal S2048x128 .bf16) (w : FVec Ideal S128x512 .bf16) (a : FVec Ideal S2048x4 .f32) : FVec Ideal S2048x128 .f32 :=
  multiReduction (F := Ideal) .add [1] S2048x128
    (mulf (broadcastTo S2048x4x128 (shapeCast S2048x4x1 (shapeCast S2048x4 a shapeCasts_S2048x4_S2048x4) shapeCasts_S2048x4_S2048x4x1)
        broadcasts_S2048x4x1_S2048x4x128)
      (shapeCast S2048x4x128 (matmul dot_S2048x128_S128x512_S2048x512_1_0_0_1_n_n none y
        (shapeCast S128x512 w shapeCasts_S128x512_S128x512) (constant (F := Ideal) S2048x512 .f32 0x00000000#32)) shapeCasts_S2048x512_S2048x4x128))
    0x00000000#32 reduces_S2048x4x128_S2048x128 (.inl rfl) rfl

theorem grp_apply (y : FVec Ideal S2048x128 .bf16) (w : FVec Ideal S128x512 .bf16) (a : FVec Ideal S2048x4 .f32)
    (r : Fin 2048) (o : Fin 128) :
    grp y w a (ix2 r o) = ∑ j : Fin 4, a (ix2 r j) * ∑ d : Fin 128, y (ix2 r d) * w (ix2 d (sub j o)) := by
  unfold grp
  refine (red_apply _ _ _ r o).trans (Finset.sum_congr rfl fun j _ => ?_)
  refine (mulf_apply _ _ _).trans (congrArg₂ (· * ·) (bcast_apply a r j o) ?_)
  refine (cast_apply _ r j o).trans ?_
  rw [shapeCast_self]
  exact mm_apply y w r (sub j o)

/-! ## A group read off the slab and the routing weights -/

/-- The term of operator `n` in the result at token `r`, feature `o`: its routing weight times the contraction of the
    token with the operator's column for that feature. -/
def term (y : FVec Ideal S2048x128 .bf16) (x1 : Vec Ideal S128x4096 .bf16) (x2 : Vec Ideal S2048x32 .f32)
    (r : Fin 2048) (o : Fin 128) (n : Fin 32) : EReal :=
  (x2 (ix2 r n) : EReal) * ∑ d : Fin 128, (y (ix2 r d) : EReal) * (x1 (ix2 d (col n o)) : EReal)

/-- The slab's 512 columns from column `512 g` on, at row `d` and column `c` of the slice. -/
theorem ld_slab (x1 : Vec Ideal S128x4096 .bf16) (g : Fin 8)
    (inb : ∀ a, (![0, 512 * g.val] : Fin 2 → Nat) a + S128x512.size a ≤ S128x4096.size a) (d : Fin 128) (c : Fin 512) :
    View.ld (Val := Elt Ideal) x1 (Rect.unit (s := S128x4096) ![0, 512 * g.val] S128x512.size inb) (ix2 d c)
      = x1 (ix2 d ⟨512 * g.val + c.val, by have := g.isLt; have := c.isLt; omega⟩) := by
  show x1 _ = x1 _
  refine congrArg x1 (funext fun a => Fin.ext ?_)
  match a with
  | ⟨0, _⟩ => show 0 + 1 * d.val = d.val; omega
  | ⟨1, _⟩ => show 512 * g.val + 1 * c.val = 512 * g.val + c.val; omega

/-- The routing weights' four columns from column `4 g` on, at token `r` and column `j` of the slice. -/
theorem ld_route (x2 : Vec Ideal S2048x32 .f32) (g : Fin 8)
    (inb : ∀ a, (![0, 4 * g.val] : Fin 2 → Nat) a + S2048x4.size a ≤ S2048x32.size a) (r : Fin 2048) (j : Fin 4) :
    View.ld (Val := Elt Ideal) x2 (Rect.unit (s := S2048x32) ![0, 4 * g.val] S2048x4.size inb) (ix2 r j)
      = x2 (ix2 r ⟨4 * g.val + j.val, by have := g.isLt; have := j.isLt; omega⟩) := by
  show x2 _ = x2 _
  refine congrArg x2 (funext fun a => Fin.ext ?_)
  match a with
  | ⟨0, _⟩ => show 0 + 1 * r.val = r.val; omega
  | ⟨1, _⟩ => show 4 * g.val + 1 * j.val = 4 * g.val + j.val; omega

/-- Group `g`, read off the whole slab and the whole routing block: the terms of operators `4 g … 4 g + 3`. -/
theorem grp_ld_apply (y : FVec Ideal S2048x128 .bf16) (x1 : Vec Ideal S128x4096 .bf16) (x2 : Vec Ideal S2048x32 .f32) (g : Fin 8)
    (inb1 : ∀ a, (![0, 512 * g.val] : Fin 2 → Nat) a + S128x512.size a ≤ S128x4096.size a)
    (inb2 : ∀ a, (![0, 4 * g.val] : Fin 2 → Nat) a + S2048x4.size a ≤ S2048x32.size a) (r : Fin 2048) (o : Fin 128) :
    grp y (View.ld (Val := Elt Ideal) x1 (Rect.unit (s := S128x4096) ![0, 512 * g.val] S128x512.size inb1))
        (View.ld (Val := Elt Ideal) x2 (Rect.unit (s := S2048x32) ![0, 4 * g.val] S2048x4.size inb2)) (ix2 r o)
      = ∑ j : Fin 4, term y x1 x2 r o ⟨4 * g.val + j.val, by have := g.isLt; have := j.isLt; omega⟩ := by
  refine (grp_apply y _ _ r o).trans (Finset.sum_congr rfl fun j _ => ?_)
  unfold term
  refine congrArg₂ (· * ·) (ld_route x2 g inb2 r j) (Finset.sum_congr rfl fun d _ => congrArg (y (ix2 r d) * ·) ?_)
  refine (ld_slab x1 g inb1 d (sub j o)).trans (congrArg x1 (congrArg (ix2 d) (Fin.ext ?_)))
  show 512 * g.val + (128 * j.val + o.val) = 128 * (4 * g.val + j.val) + o.val
  omega

/-! ## Thirty-two operators as eight groups of four -/

theorem sum_groups (T : Fin 32 → EReal) :
    ∑ n : Fin 32, T n = ∑ g : Fin 8, ∑ j : Fin 4, T ⟨4 * g.val + j.val, by have := g.isLt; have := j.isLt; omega⟩ := by
  rw [← Equiv.sum_comp (finProdFinEquiv : Fin 8 × Fin 4 ≃ Fin 32) T, Fintype.sum_prod_type]
  refine Finset.sum_congr rfl fun g _ => Finset.sum_congr rfl fun j _ => congrArg T (Fin.ext ?_)
  show j.val + 4 * g.val = 4 * g.val + j.val
  omega

/-! ## The body -/

/-- The tile's cast to its own shape is the tile. -/
theorem pay2_eq (v0 : Vec Ideal S2048x128 .bf16) : k0_pay2 (F := Ideal) v0 = v0 := by
  unfold k0_pay2
  exact shapeCast_self _ _

/-- The body's payloads, unfolded: the eight groups added in order onto the zero splat. -/
theorem body_eq (v0 : Vec Ideal S2048x128 .bf16)
    (w0 : Vec Ideal S128x512 .bf16) (a0 : Vec Ideal S2048x4 .f32) (w1 : Vec Ideal S128x512 .bf16) (a1 : Vec Ideal S2048x4 .f32)
    (w2 : Vec Ideal S128x512 .bf16) (a2 : Vec Ideal S2048x4 .f32) (w3 : Vec Ideal S128x512 .bf16) (a3 : Vec Ideal S2048x4 .f32)
    (w4 : Vec Ideal S128x512 .bf16) (a4 : Vec Ideal S2048x4 .f32) (w5 : Vec Ideal S128x512 .bf16) (a5 : Vec Ideal S2048x4 .f32)
    (w6 : Vec Ideal S128x512 .bf16) (a6 : Vec Ideal S2048x4 .f32) (w7 : Vec Ideal S128x512 .bf16) (a7 : Vec Ideal S2048x4 .f32) :
    k0_pay1 (F := Ideal) (k0_pay2 v0) (k0_pay4 (k0_pay2 v0) (k0_pay3 v0 w0 a0 w1 a1 w2 a2) w3 a3 w4 a4 w5 a5)
        (k0_pay5 (k0_pay2 v0) w6) (k0_pay6 a6) w7 a7
      = addf (addf (addf (addf (addf (addf (addf (addf
          (broadcast S2048x128 (Scalar.ofBits (F := Ideal) .f32 0x00000000#32))
          (grp (k0_pay2 v0) w0 a0)) (grp (k0_pay2 v0) w1 a1)) (grp (k0_pay2 v0) w2 a2)) (grp (k0_pay2 v0) w3 a3))
          (grp (k0_pay2 v0) w4 a4)) (grp (k0_pay2 v0) w5 a5)) (grp (k0_pay2 v0) w6 a6)) (grp (k0_pay2 v0) w7 a7) := rfl

theorem out0_3_apply (x0 : Vec Ideal S2048x128 .bf16) (x1 : Vec Ideal S128x4096 .bf16) (x2 : Vec Ideal S2048x32 .f32)
    (r : Fin 2048) (o : Fin 128) :
    (out0_3 x0 x1 x2 (ix2 r o) : EReal)
      = ∑ n : Fin 32, (x2 (ix2 r n) : EReal) * ∑ d : Fin 128, (x0 (ix2 r d) : EReal) * (x1 (ix2 d (col n o)) : EReal) := by
  have hz : (![0, 0] : Fin 2 → Nat) = fun _ => 0 := funext fun a => by fin_cases a <;> rfl
  have hzero : (Scalar.ofBits (F := Ideal) .f32 0x00000000#32 : EReal) = 0 := Ideal.ofBits_zero_f32
  show _ = ∑ n : Fin 32, term x0 x1 x2 r o n
  unfold out0_3
  rw [View.canon_unit_zero hz]
  simp only [View.ld_unit_zero (S := S2048x128) hz]
  rw [body_eq, pay2_eq]
  simp only [addf_apply, broadcast_apply]
  rw [show grp x0 (View.ld (Val := Elt Ideal) x1 r0_1) (View.ld (Val := Elt Ideal) x2 r0_2) (ix2 r o) = _ from grp_ld_apply x0 x1 x2 0 _ _ r o,
    show grp x0 (View.ld (Val := Elt Ideal) x1 r0_3) (View.ld (Val := Elt Ideal) x2 r0_4) (ix2 r o) = _ from grp_ld_apply x0 x1 x2 1 _ _ r o,
    show grp x0 (View.ld (Val := Elt Ideal) x1 r0_5) (View.ld (Val := Elt Ideal) x2 r0_6) (ix2 r o) = _ from grp_ld_apply x0 x1 x2 2 _ _ r o,
    show grp x0 (View.ld (Val := Elt Ideal) x1 r0_7) (View.ld (Val := Elt Ideal) x2 r0_8) (ix2 r o) = _ from grp_ld_apply x0 x1 x2 3 _ _ r o,
    show grp x0 (View.ld (Val := Elt Ideal) x1 r0_9) (View.ld (Val := Elt Ideal) x2 r0_10) (ix2 r o) = _ from grp_ld_apply x0 x1 x2 4 _ _ r o,
    show grp x0 (View.ld (Val := Elt Ideal) x1 r0_11) (View.ld (Val := Elt Ideal) x2 r0_12) (ix2 r o) = _ from grp_ld_apply x0 x1 x2 5 _ _ r o,
    show grp x0 (View.ld (Val := Elt Ideal) x1 r0_13) (View.ld (Val := Elt Ideal) x2 r0_14) (ix2 r o) = _ from grp_ld_apply x0 x1 x2 6 _ _ r o,
    show grp x0 (View.ld (Val := Elt Ideal) x1 r0_15) (View.ld (Val := Elt Ideal) x2 r0_16) (ix2 r o) = _ from grp_ld_apply x0 x1 x2 7 _ _ r o]
  rw [sum_groups (term x0 x1 x2 r o), Fin.sum_univ_eight, hzero, zero_add]

end Cert.Moe.Ker

end
-- ==== Proof.KerHost.lean ====
/- The three arrays the kernel's region is launched on, read at an entry, as functions of the program's arguments.

   The host lines before the region flatten the tokens to 16384 rows (row 2048 b + s is token (b, s); the change of
   float format is the identity on extended reals), lay the 32 effective operators q · s side by side in a slab of
   128 rows × 4096 columns (entry (d, 128 n + o) is entry (n, o, d) of operator n: a transposition and a flattening),
   and build the dense routing table: row 2048 b + s, column n holds the sum over the two selections k of the routing
   weight times the indicator that selection k names operator n, plus the folded uniform share. -/
import proofs.«430450_j5111011082884_3_alg».proof.Proof.Gen.KernelIdeal.Frame
import proofs.«430450_j5111011082884_3_alg».proof.Proof.RefRead
import proofs.«430450_j5111011082884_3_alg».proof.Proof.KerBody
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.Moe.Ker

open Idealize.ShloMosaic Idealize.ShloMosaic.TcCoe Idealize.SL.Sem Idealize.ShloMosaic.StableHlo Idealize.ShloMosaic.ValueIdx
open Cert.KernelIdeal Cert.KernelIdeal.Gen
open scoped BigOperators

variable (m : (ℓ : Loc nD τ sig) → Buf (Elt Ideal) ℓ)

/-- The program's four argument arrays on core c, at their literal types: tokens, selections, routing weights, operators. -/
abbrev argX (c : Dev nD) : S8x2048x128.Idx → EReal := m ((c : Thread nD τ).loc main_arg0)
abbrev argI (c : Dev nD) : S8x2048x2.Idx → BitVec 32 := m ((c : Thread nD τ).loc main_arg1)
abbrev argA (c : Dev nD) : S8x2048x2.Idx → EReal := m ((c : Thread nD τ).loc main_arg2)
abbrev argO (c : Dev nD) : S32x128x128.Idx → EReal := m ((c : Thread nD τ).loc main_arg3)
/-- The three arrays the region is launched on, at their literal types: flattened tokens, slab, routing table. -/
abbrev arrTok (c : Dev nD) : S16384x128.Idx → EReal := V m c main_v18
abbrev arrSlab (c : Dev nD) : S128x4096.Idx → EReal := V m c main_v16
abbrev arrRoute (c : Dev nD) : S16384x32.Idx → EReal := V m c main_v32

/-- Row of the flattened token array that holds token (b, s). -/
def row (b : Fin 8) (s : Fin 2048) : Fin 16384 := ⟨2048 * b.val + s.val, by have := b.isLt; have := s.isLt; omega⟩

/-- Flattening the two leading axes: row 2048 b + s of the [16384, 128] array is entry (b, s, ·) of the [8, 2048, 128] one. -/
theorem read_flat_tokens {α : Type} (x : S8x2048x128.Idx → α) (h : S8x2048x128.ShapeCasts S16384x128)
    (b : Fin 8) (s : Fin 2048) (d : Fin 128) :
    shapeCast S16384x128 x h (ix2 (row b s) d) = x (ix3 b s d) := by
  refine shapeCast_apply x h _ _ ?_
  rw [Shape.rowMajor_val_three, Shape.rowMajor_val_two]
  show (b.val * 2048 + s.val) * 128 + d.val = (2048 * b.val + s.val) * 128 + d.val
  omega

set_option maxRecDepth 65536 in
set_option maxHeartbeats 8000000 in
/-- The flattened tokens: row 2048 b + s is token (b, s). -/
theorem V_tokens (c : Dev nD) (b : Fin 8) (s : Fin 2048) (d : Fin 128) :
    arrTok m c (ix2 (row b s) d) = argX m c (ix3 b s d) := by
  -- the array is the change of float format (the identity) of the reshaped tokens
  show V m c main_v18 (ix2 (row b s) d) = _
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  exact read_flat_tokens (argX m c) shapeCasts_S8x2048x128_S16384x128 b s d

/-- The slab's layout: entry (d, 128 n + o) of the [128, 4096] array is entry (d, n, o) of the [128, 32, 128] one, which the
    transposition by [2, 0, 1] reads at (n, o, d) of the [32, 128, 128] operand. -/
theorem read_slab {α : Type} (y : S32x128x128.Idx → α) (ht : S32x128x128.Transposes [2, 0, 1] S128x32x128)
    (hs : S128x32x128.ShapeCasts S128x4096) (d : Fin 128) (n : Fin 32) (o : Fin 128) :
    shapeCast S128x4096 (transpose S128x32x128 [2, 0, 1] y ht) hs (ix2 d (col n o)) = y (ix3 n o d) := by
  have e1 : shapeCast S128x4096 (transpose S128x32x128 [2, 0, 1] y ht) hs (ix2 d (col n o))
      = transpose S128x32x128 [2, 0, 1] y ht (ix3 d n o) := by
    refine shapeCast_apply _ hs _ _ ?_
    rw [Shape.rowMajor_val_three, Shape.rowMajor_val_two]
    show (d.val * 32 + n.val) * 128 + o.val = d.val * 4096 + (128 * n.val + o.val)
    omega
  rw [e1]
  exact transpose_apply [2, 0, 1] y ht (ix3 d n o) (ix3 n o d) (fun b => by fin_cases b <;> rfl)

set_option maxRecDepth 65536 in
set_option maxHeartbeats 8000000 in
/-- The slab: entry (d, 128 n + o) is entry (n, o, d) of the effective operator q · s (the two factors are the
    reference program's stages of the same names: both programs spell them with the same operations). -/
theorem V_slab (c : Dev nD) (d : Fin 128) (n : Fin 32) (o : Fin 128) :
    arrSlab m c (ix2 d (col n o))
      = Cert.ReferenceIdeal.PRead.val_main_v10 (F := Ideal) (argO m c) (ix3 n o d)
        * Cert.ReferenceIdeal.PRead.val_main_v14 (F := Ideal) (argO m c) (ix3 n o d) := by
  -- the array is the change of float format (the identity) of the flattened transposition of the product q · s
  show V m c main_v16 (ix2 d (col n o)) = _
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  simp only [TRef.ofBuf, TRef.toBuf, cast_eq]
  rw [truncf_apply]
  show shapeCast S128x4096 (transpose S128x32x128 [2, 0, 1] (mulf _ _)
      transposes_S32x128x128_S128x32x128_2_0_1) shapeCasts_S128x32x128_S128x4096 (ix2 d (col n o)) = _
  -- the product read at (n, o, d); its factors are the reference's stages, spelt with the same operations
  exact (read_slab _ _ _ d n o).trans rfl

/-- Flattening the two leading axes of the routing table: row 2048 b + s of [16384, 32] is entry (b, s, ·) of [8, 2048, 32]. -/
theorem read_flat_route {α : Type} (x : S8x2048x32.Idx → α) (h : S8x2048x32.ShapeCasts S16384x32)
    (b : Fin 8) (s : Fin 2048) (n : Fin 32) :
    shapeCast S16384x32 x h (ix2 (row b s) n) = x (ix3 b s n) := by
  refine shapeCast_apply x h _ _ ?_
  rw [Shape.rowMajor_val_three, Shape.rowMajor_val_two]
  show (b.val * 2048 + s.val) * 32 + n.val = (2048 * b.val + s.val) * 32 + n.val
  omega

/-- An array over (b, s, k) repeated along a new last axis of 32 reads, at (b, s, k, n), its entry (b, s, k). -/
theorem read_bcast_sel {α : Type} (x : S8x2048x2.Idx → α) (h1 : S8x2048x2.BroadcastsInDim S8x2048x2x1 ![0, 1, 2])
    (h2 : S8x2048x2x1.BroadcastsInDim S8x2048x2x32 ![0, 1, 2, 3]) (b : Fin 8) (s : Fin 2048) (k : Fin 2) (n : Fin 32) :
    broadcastInDim S8x2048x2x32 ![0, 1, 2, 3] h2 (broadcastInDim S8x2048x2x1 ![0, 1, 2] h1 x) (ix4 b s k n) = x (ix3 b s k) := by
  rw [broadcastInDim_apply ![0, 1, 2, 3] h2 _ (ix4 b s k n) (ix4 b s k (0 : Fin 1)) (fun a => by fin_cases a <;> rfl)]
  exact broadcastInDim_apply ![0, 1, 2] h1 x (ix4 b s k (0 : Fin 1)) (ix3 b s k) (fun a => by fin_cases a <;> rfl)

/-- The operator numbers 0 … 31 laid along the last axis read, at (b, s, k, n), the word n. -/
theorem read_bcast_iota (h3 : S32.BroadcastsInDim S1x1x1x32 ![3]) (h4 : S1x1x1x32.BroadcastsInDim S8x2048x2x32 ![0, 1, 2, 3])
    (b : Fin 8) (s : Fin 2048) (k : Fin 2) (n : Fin 32) :
    broadcastInDim S8x2048x2x32 ![0, 1, 2, 3] h4 (broadcastInDim S1x1x1x32 ![3] h3 (iotaInDim S32 32 0)) (ix4 b s k n)
      = BitVec.ofNat 32 n.val := by
  rw [broadcastInDim_apply ![0, 1, 2, 3] h4 _ (ix4 b s k n) (ix4 (0 : Fin 1) (0 : Fin 1) (0 : Fin 1) n) (fun a => by fin_cases a <;> rfl)]
  rw [broadcastInDim_apply ![3] h3 _ (ix4 (0 : Fin 1) (0 : Fin 1) (0 : Fin 1) n) (ix1 n) (fun a => by fin_cases a; rfl)]
  rfl

/-- Two operator numbers below 32 are equal as 32-bit words exactly when they are equal: the comparison word, read as a
    number, is the indicator. -/
theorem indicator_word (a n : Fin 32) :
    (((IntOp.cmpi .eq (BitVec.ofNat 32 a.val) (BitVec.ofNat 32 n.val)).toNat : ℝ) : EReal) = if a = n then (1 : EReal) else 0 := by
  have key : (BitVec.ofNat 32 a.val == BitVec.ofNat 32 n.val) = decide (a = n) := by
    rw [Bool.eq_iff_iff]
    simp only [beq_iff_eq, decide_eq_true_eq]
    constructor
    · intro e
      apply Fin.ext
      have e' := congrArg BitVec.toNat e
      simp only [BitVec.toNat_ofNat] at e'
      have := a.isLt
      have := n.isLt
      omega
    · rintro rfl; rfl
  show (((BitVec.ofBool (BitVec.ofNat 32 a.val == BitVec.ofNat 32 n.val)).toNat : ℝ) : EReal) = _
  rw [key]
  by_cases h : a = n <;> simp [h]

/-- The sum over the two selections: at (b, s, n) the host's reduction of weight × indicator over the selection axis is
    the zero it starts from plus the two-term sum. -/
theorem read_route_sum (A : FVec Ideal S8x2048x2 .f32) (I : IVec S8x2048x2 32)
    (h1 : S8x2048x2.BroadcastsInDim S8x2048x2x1 ![0, 1, 2]) (h2 : S8x2048x2x1.BroadcastsInDim S8x2048x2x32 ![0, 1, 2, 3])
    (h3 : S32.BroadcastsInDim S1x1x1x32 ![3]) (h4 : S1x1x1x32.BroadcastsInDim S8x2048x2x32 ![0, 1, 2, 3])
    (hred : S8x2048x2x32.ReducesTo [2] S8x2048x32) (hS : 0 < S_.numel)
    (J : Fin 8 → Fin 2048 → Fin 2 → Fin 32) (hJ : ∀ b s k, I (ix3 b s k) = BitVec.ofNat 32 (J b s k).val)
    (b : Fin 8) (s : Fin 2048) (n : Fin 32) :
    Host.reduceAdd
        (mulf (broadcastInDim S8x2048x2x32 ![0, 1, 2, 3] h2 (broadcastInDim S8x2048x2x1 ![0, 1, 2] h1 A))
          (uitofp .f32 (cmpi .eq (broadcastInDim S8x2048x2x32 ![0, 1, 2, 3] h2 (broadcastInDim S8x2048x2x1 ![0, 1, 2] h1 I))
            (broadcastInDim S8x2048x2x32 ![0, 1, 2, 3] h4 (broadcastInDim S1x1x1x32 ![3] h3 (iotaInDim S32 32 0))))))
        (constant S_ .f32 0#32) hred hS (ix3 b s n)
      = 0 + ∑ k : Fin 2, A (ix3 b s k) * (if J b s k = n then (1 : EReal) else 0) := by
  have hR : S8x2048x2x32.Reduces [2] S8x2048x32 := by decide
  simp only [Host.reduceAdd, Ideal.hostReduceAdd_def]
  rw [Ideal.hostReduceAdd_single hred hR]
  congr 1
  · exact Ideal.ofBits_zero_f32
  · refine Finset.sum_congr rfl (fun (k : Fin 2) _ => ?_)
    have hl : hR.lift (ix3 b s n) k = ix4 b s k n := funext (fun a => by fin_cases a <;> exact Fin.ext rfl)
    rw [hl, mulf_apply, read_bcast_sel A h1 h2 b s k n]
    congr 1
    show (((IntOp.cmpi .eq
        (broadcastInDim S8x2048x2x32 ![0, 1, 2, 3] h2 (broadcastInDim S8x2048x2x1 ![0, 1, 2] h1 I) (ix4 b s k n))
        (broadcastInDim S8x2048x2x32 ![0, 1, 2, 3] h4 (broadcastInDim S1x1x1x32 ![3] h3 (iotaInDim S32 32 0)) (ix4 b s k n))).toNat : ℝ) : EReal) = _
    rw [read_bcast_sel I h1 h2 b s k n, read_bcast_iota h3 h4 b s k n, hJ]
    exact indicator_word (J b s k) n

set_option maxRecDepth 65536 in
set_option maxHeartbeats 8000000 in
/-- The routing table, for selections that name operators: row 2048 b + s, column n. -/
theorem V_route (c : Dev nD) (J : Fin 8 → Fin 2048 → Fin 2 → Fin 32)
    (hJ : ∀ b s k, argI m c (ix3 b s k) = BitVec.ofNat 32 (J b s k).val)
    (b : Fin 8) (s : Fin 2048) (n : Fin 32) :
    arrRoute m c (ix2 (row b s) n)
      = (0 + ∑ k : Fin 2, argA m c (ix3 b s k) * (if J b s k = n then (1 : EReal) else 0))
        + Ideal.ofBits .f32 0x34A7C5AC#32 := by
  -- the array is the reshaped sum of the reduction over the selections and the splat of the folded share
  show V m c main_v32 (ix2 (row b s) n) = _
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  show shapeCast S16384x32 (addf _ _) shapeCasts_S8x2048x32_S16384x32 (ix2 (row b s) n) = _
  rw [read_flat_route, addf_apply]
  refine congrArg₂ (· + ·) ?_ ?_
  · exact read_route_sum (argA m c) (argI m c) _ _ _ _ _ _ J hJ b s n
  · rfl

end Cert.Moe.Ker

end
-- ==== Proof.KerBlocks.lean ====
/- From the kernel's blocks to its output array.

   The grid has eight points; point t stages rows 2048 t … 2048 t + 2047 of the flattened tokens and of the routing
   table, the whole slab, and writes back rows 2048 t … 2048 t + 2047 of the output. What the body leaves at an entry of
   its tile depends on that row of the token tile, that row of the routing tile and the slab only, so every written
   block is the restriction of ONE function of the three whole arrays, and the eight blocks tile the output. -/
import proofs.«430450_j5111011082884_3_alg».proof.Proof.Gen.KernelIdeal.Frame
import proofs.«430450_j5111011082884_3_alg».proof.Proof.KerBody
import proofs.«430450_j5111011082884_3_alg».proof.Proof.KerHost
import Idealize.ShloMosaic.Lib.Pipeline.Value
import Idealize.ShloMosaic.Lib.ValueIdx

noncomputable section

namespace Cert.Moe.Ker

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

variable (m : (ℓ : Loc nD τ sig) → Buf (Elt Ideal) ℓ)

/-- The output array as one function of the three arrays the region is launched on: at (row, o) the sum over the 32
    operators of the routing entry times the contraction of the token row with the operator's column for o. -/
def wholeOut (xt : S16384x128.Idx → EReal) (sl : S128x4096.Idx → EReal) (rt : S16384x32.Idx → EReal) : S16384x128.Idx → EReal :=
  fun i => ∑ n : Fin 32, rt (ix2 (i 0) n) * ∑ d : Fin 128, xt (ix2 (i 0) d) * sl (ix2 d (col n (i 1)))

theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The three input tiles at point t, at their literal types. -/
abbrev blkTok (c : Dev nD) (t : Fin cfg0.N) : S2048x128.Idx → EReal := iblk m c 0 t
abbrev blkSlab (c : Dev nD) (t : Fin cfg0.N) : S128x4096.Idx → EReal := iblk m c 1 t
abbrev blkRoute (c : Dev nD) (t : Fin cfg0.N) : S2048x32.Idx → EReal := iblk m c 2 t

/-- The token tile at point t is rows 2048 t … of the flattened tokens. -/
theorem blkTok_apply (c : Dev nD) (t : Fin cfg0.N) (r : Fin 2048) (d : Fin 128) (R : Fin 16384) (hR : R.val = 2048 * t.val + r.val) :
    blkTok m c t (ix2 r d) = arrTok m c (ix2 R d) := by
  obtain ⟨e0, e1, -⟩ := idx_facts t
  unfold blkTok iblk
  rw [View.read_apply]
  show V m c main_v18 _ = V m c main_v18 _
  congr 1
  funext a; apply Fin.ext
  match a with
  | ⟨0, _⟩ => show win0_0.index t (0 : Fin 2) * 2048 + 1 * r.val = R.val; omega
  | ⟨1, _⟩ => show win0_0.index t (1 : Fin 2) * 128 + 1 * d.val = d.val; omega

/-- The slab tile is the whole slab at every point. -/
theorem blkSlab_apply (c : Dev nD) (t : Fin cfg0.N) (d : Fin 128) (q : Fin 4096) :
    blkSlab m c t (ix2 d q) = arrSlab m c (ix2 d q) := by
  obtain ⟨-, -, e0, e1, -⟩ := idx_facts t
  unfold blkSlab iblk
  rw [View.read_apply]
  show V m c main_v16 _ = V m c main_v16 _
  congr 1
  funext a; apply Fin.ext
  match a with
  | ⟨0, _⟩ => show win0_1.index t (0 : Fin 2) * 128 + 1 * d.val = d.val; omega
  | ⟨1, _⟩ => show win0_1.index t (1 : Fin 2) * 4096 + 1 * q.val = q.val; omega

/-- The routing tile at point t is rows 2048 t … of the routing table. -/
theorem blkRoute_apply (c : Dev nD) (t : Fin cfg0.N) (r : Fin 2048) (n : Fin 32) (R : Fin 16384) (hR : R.val = 2048 * t.val + r.val) :
    blkRoute m c t (ix2 r n) = arrRoute m c (ix2 R n) := by
  obtain ⟨-, -, -, -, e0, e1, -⟩ := idx_facts t
  unfold blkRoute iblk
  rw [View.read_apply]
  show V m c main_v32 _ = V m c main_v32 _
  congr 1
  funext a; apply Fin.ext
  match a with
  | ⟨0, _⟩ => show win0_2.index t (0 : Fin 2) * 2048 + 1 * r.val = R.val; omega
  | ⟨1, _⟩ => show win0_2.index t (1 : Fin 2) * 32 + 1 * n.val = n.val; omega

/-- The output window's blocks lie inside the array, so what is written back of a tile is the tile. -/
theorem cut_apply_ix2 (t : Fin cfg0.N) (B : S2048x128.Idx → EReal) (r : Fin 2048) (o : Fin 128) :
    (cfg0.win 3).cut (grid0.coords t) B (ix2 r o) = B (ix2 r o) :=
  congrArg B (funext fun a => Fin.ext rfl)

/-- What point t writes back is block t of the one function of the three arrays. -/
theorem flushed_eq (c : Dev nD) (t : Fin cfg0.N) :
    (dats m 0 c).flushed 3 t = ((cfg0.win 3).blk t).view.read (Elt Ideal) (wholeOut (arrTok m c) (arrSlab m c) (arrRoute m c)) := by
  show (cfg0.win 3).cut (grid0.coords t) ((dats m 0 c).after 3 t) = _
  rw [after0_3]
  funext j
  obtain ⟨e0, e1⟩ : win0_3.index t (0 : Fin 2) = t.val ∧ win0_3.index t (1 : Fin 2) = 0 := by
    obtain ⟨-, -, -, -, -, -, h⟩ := idx_facts t; exact h
  have ht : t.val < 8 := by have h := t.isLt; have e : cfg0.N = 8 := N_0; omega
  obtain ⟨r, o, rfl⟩ : ∃ (r : Fin 2048) (o : Fin 128), j = (ix2 r o : S2048x128.Idx) := ⟨j 0, j 1, eq_ix2 j⟩
  let R : Fin 16384 := ⟨2048 * t.val + r.val, by have := r.isLt; omega⟩
  have hemb : ((cfg0.win 3).blk t).view.emb (ix2 r o : S2048x128.Idx) = (ix2 R o : S16384x128.Idx) := by
    funext a; apply Fin.ext
    match a with
    | ⟨0, _⟩ => show win0_3.index t (0 : Fin 2) * 2048 + 1 * r.val = 2048 * t.val + r.val; omega
    | ⟨1, _⟩ => show win0_3.index t (1 : Fin 2) * 128 + 1 * o.val = o.val; omega
  rw [View.read_apply, hemb]
  refine (cut_apply_ix2 t _ r o).trans ?_
  refine (out0_3_apply (blkTok m c t) (blkSlab m c t) (blkRoute m c t) r o).trans ?_
  unfold wholeOut
  refine Finset.sum_congr rfl fun n _ => ?_
  refine congrArg₂ (· * ·) (blkRoute_apply m c t r n R rfl) (Finset.sum_congr rfl fun d _ => ?_)
  exact congrArg₂ (· * ·) (blkTok_apply m c t r d R rfl) (blkSlab_apply m c t d (col n o))

/-- The output array after the run. -/
theorem final_out (c : Dev nD) :
    (dats m 0 c).arrAt 3 cfg0.N = wholeOut (arrTok m c) (arrSlab m c) (arrRoute m c) := by
  refine (dats m 0 c).arrAt_eq_of_cover 3 (wholeOut (arrTok m c) (arrSlab m c) (arrRoute m c)) (fun t _ => flushed_eq m c t) fun i => ?_
  have hi0 : (i 0).val < 16384 := (i 0).isLt
  have hi1 : (i 1).val < 128 := (i 1).isLt
  let t : Fin cfg0.N := ⟨(i 0).val / 2048, by rw [show cfg0.N = 8 from N_0]; omega⟩
  obtain ⟨e0, e1⟩ : win0_3.index t (0 : Fin 2) = t.val ∧ win0_3.index t (1 : Fin 2) = 0 := by
    obtain ⟨-, -, -, -, -, -, h⟩ := idx_facts t; exact h
  refine ⟨t, flush0_3 t, ?_⟩
  show i ∈ ((View.whole main_v33).slice (win0_3.rect t)).set
  rw [View.set_slice_whole, Rect.mem_set_unit]
  intro a
  match a with
  | ⟨0, _⟩ =>
    show win0_3.index t (0 : Fin 2) * 2048 ≤ (i 0).val ∧ (i 0).val < win0_3.index t (0 : Fin 2) * 2048 + 2048
    rw [e0]; show (i 0).val / 2048 * 2048 ≤ (i 0).val ∧ (i 0).val < (i 0).val / 2048 * 2048 + 2048; omega
  | ⟨1, _⟩ =>
    show win0_3.index t (1 : Fin 2) * 128 ≤ (i 1).val ∧ (i 1).val < win0_3.index t (1 : Fin 2) * 128 + 128
    rw [e1]; omega

end Cert.Moe.Ker

end
-- ==== Proof.KerRun.lean ====
/- The kernel's run, read: its result is the output array of the region regrouped to [8, 2048, 128] (entry (b, s, o) is
   entry (2048 b + s, o) of the flattened output), and the four arguments end as launched. -/
import proofs.«430450_j5111011082884_3_alg».proof.Proof.Gen.KernelIdeal.Frame
import proofs.«430450_j5111011082884_3_alg».proof.Proof.KerBlocks
import Idealize.ShloMosaic.Lib.Pipeline.Value
import Idealize.ShloMosaic.Lib.StableHlo.Run
import Idealize.ShloMosaic.Lib.ValueIdx

noncomputable section

namespace Cert.Moe.Ker

open Idealize.ShloMosaic Idealize.ShloMosaic.TcCoe Idealize.SL.Sem Idealize.ShloMosaic.StableHlo Idealize.ShloMosaic.ValueIdx
open Idealize.ShloMosaic.Pipeline (Dat)
open Cert.KernelIdeal Cert.KernelIdeal.Gen
open scoped BigOperators

variable (m : (ℓ : Loc nD τ sig) → Buf (Elt Ideal) ℓ) (ρ : Dev nD → PrngReg)

/-- The kernel's result on core c. -/
def kerRes (c : Dev nD) : S8x2048x128.Idx → EReal :=
  fun i => wholeOut (arrTok m c) (arrSlab m c) (arrRoute m c) (ix2 (row (i 0) (i 1)) (i 2))

/-- Regrouping [16384, 128] to [8, 2048, 128]: entry (b, s, o) is entry (2048 b + s, o), the two indices having the same
    row-major position (2048 b + s) · 128 + o. -/
theorem regroup_apply (Y : S16384x128.Idx → EReal) (i : S8x2048x128.Idx) :
    shapeCast S8x2048x128 Y shapeCasts_S16384x128_S8x2048x128 i = Y (ix2 (row (i 0) (i 1)) (i 2)) := by
  refine shapeCast_apply _ _ i (ix2 (row (i 0) (i 1)) (i 2)) ?_
  rw [Shape.rowMajor_val_two, Shape.rowMajor_val_three]
  show (row (i 0) (i 1)).val * 128 + (i 2).val = ((i 0).val * 2048 + (i 1).val) * 128 + (i 2).val
  unfold row
  simp only
  omega

/-- The one host line after the region regroups the region's output array, which is the final one. -/
theorem res_eq (c : Dev nD) :
    Pipeline.afterTail₀ cfgs (dats m) 0 (V0 m) [hostOps1] c main_v34 = kerRes m c := by
  unfold Pipeline.afterTail₀
  show StableHlo.after hostOps1 _ (Proc.devRef .tc main_v34) = _
  after_results
  have hX : Pipeline.withArrays (cfgs 0).spec c (V0 m c) (fun w => (dats m 0 c).arrAt w (cfgs 0).N) (Proc.devRef .tc main_v33)
      = wholeOut (arrTok m c) (arrSlab m c) (arrRoute m c) :=
    (Pipeline.withArrays_arr spec0 launch0.win.arr_inj c _ _ 3).trans (final_out m c)
  rw [hX]
  exact funext fun (i : S8x2048x128.Idx) => regroup_apply _ i

theorem ker_run : θ_run defs (onTc (τ := τ) (main (F := Ideal))) ⟨m, fun _ => 0, ρ⟩ fun r => ∀ c : Dev nD,
      r.2.mem ((c.tc : Thread nD τ).loc main_v34) = kerRes m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun _ h c =>
    ⟨((h c).2 main_v34 (Pipeline.mem_restRefs_of main_v34 (by decide) (by decide))).trans (res_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.Moe.Ker

end
-- ==== Proof.LibERealBatchNorm.lean ====
/- Extended-real arithmetic on real-valued data, and the identity between the two spellings of the
   variance of a finite family: the mean of the squares minus the square of the mean, and the mean of the
   squared deviations. Both are stated for families every entry of which is a real number; at an infinity
   the two spellings differ. -/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.Order.BigOperators.Ring.Finset
import Mathlib.Analysis.SpecialFunctions.Pow.Real
import Mathlib.Tactic.Ring
import Mathlib.Tactic.FieldSimp
import Mathlib.Tactic.Positivity
import Mathlib.Tactic.Linarith

noncomputable section

namespace Cert.ERealBN

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- The sum of real numbers, read in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

theorem IsReal.sum {ι : Type*} (s : Finset ι) (f : ι → EReal) (h : ∀ i ∈ s, IsReal (f i)) :
    IsReal (∑ i ∈ s, f i) := by
  classical
  induction s using Finset.induction_on with
  | empty => simpa using IsReal.zero
  | insert a s ha ih =>
    rw [Finset.sum_insert ha]
    exact IsReal.add (h a (Finset.mem_insert_self a s))
      (ih (fun i hi => h i (Finset.mem_insert_of_mem hi)))

theorem IsReal.div_coe {x : EReal} (hx : IsReal x) {r : ℝ} (hr : r ≠ 0) : IsReal (Ideal.div x (r : EReal)) := by
  rw [Ideal.div_coe hr x]
  exact IsReal.mul hx (IsReal.coe _)

theorem IsReal.rsqrt_of_pos {x : EReal} (hx : IsReal x) (hpos : 0 < x) : IsReal (Ideal.rsqrt x) := by
  obtain ⟨r, rfl⟩ := hx
  have hr : 0 < r := by exact_mod_cast hpos
  rw [Ideal.rsqrt_coe, if_neg (not_lt.mpr hr.le), if_neg hr.ne']
  exact ⟨_, rfl⟩

/-! The float constants the programs spell, as the extended reals their patterns denote. -/

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_1e5 : Ideal.ofBits .f32 0x47C35000#32 = ((100000 : ℝ) : EReal) := by
  simp [Ideal.ofBits, Ideal.ieee, -EReal.coe_mul]; norm_num

/-- The batch-normalisation epsilon is a positive real (the dyadic `10995116 · 2⁻⁴⁰`, about `1e-5`). -/
theorem ofBits_eps_pos : ∃ e : ℝ, 0 < e ∧ Ideal.ofBits .f32 0x3727C5AC#32 = (e : EReal) := by
  refine ⟨10995116 * (2 : ℝ) ^ (-40 : Int), by positivity, ?_⟩
  simp [Ideal.ofBits, Ideal.ieee, -EReal.coe_mul]

/-! The variance law. -/

/-- Division of a real sum by a nonzero real, in the reals. -/
private theorem div_sum_coe {ι : Type*} [Fintype ι] (f : ι → ℝ) {N : ℝ} (hN : N ≠ 0) :
    Ideal.div (∑ i, ((f i : ℝ) : EReal)) (N : EReal) = (((∑ i, f i) * (1 / N) : ℝ) : EReal) := by
  rw [Ideal.div_coe hN, coe_sum, ← EReal.coe_mul]

/-- The sum of squared deviations from `m`, expanded. -/
private theorem sum_dev_sq {ι : Type*} [Fintype ι] (f : ι → ℝ) (m : ℝ) :
    ∑ i, (f i - m) * (f i - m)
      = ∑ i, f i * f i - 2 * m * ∑ i, f i + (Fintype.card ι : ℝ) * (m * m) := by
  have h : ∀ i, (f i - m) * (f i - m) = f i * f i - 2 * m * f i + m * m := fun i => by ring
  simp_rw [h, Finset.sum_add_distrib, Finset.sum_sub_distrib, ← Finset.mul_sum, Finset.sum_const,
    Finset.card_univ, nsmul_eq_mul]
  ring

/-- The deviations' side, in the reals. -/
private theorem dev_coe {ι : Type*} [Fintype ι] (f : ι → ℝ) {N : ℝ} (hN : N ≠ 0) :
    Ideal.div (∑ i, (((f i : ℝ) : EReal) - Ideal.div (∑ i, ((f i : ℝ) : EReal)) (N : EReal))
        * (((f i : ℝ) : EReal) - Ideal.div (∑ i, ((f i : ℝ) : EReal)) (N : EReal))) (N : EReal)
      = (((∑ i, (f i - (∑ i, f i) * (1 / N)) * (f i - (∑ i, f i) * (1 / N))) * (1 / N) : ℝ) : EReal) := by
  rw [div_sum_coe f hN]
  simp_rw [← EReal.coe_sub, ← EReal.coe_mul]
  rw [div_sum_coe _ hN]

theorem var_eq {ι : Type*} [Fintype ι] (c : ι → EReal) (hc : ∀ i, IsReal (c i)) (N : ℝ) (hN : (Fintype.card ι : ℝ) = N) (hpos : 0 < N) :
    Ideal.div (∑ i, c i * c i) (N : EReal) - Ideal.div (∑ i, c i) (N : EReal) * Ideal.div (∑ i, c i) (N : EReal)
      = Ideal.div (∑ i, (c i - Ideal.div (∑ i, c i) (N : EReal)) * (c i - Ideal.div (∑ i, c i) (N : EReal))) (N : EReal) := by
  choose f hf using hc
  obtain rfl : c = fun i => ((f i : ℝ) : EReal) := funext hf
  have hN0 : N ≠ 0 := hpos.ne'
  rw [dev_coe f hN0, div_sum_coe f hN0]
  simp_rw [← EReal.coe_mul]
  rw [div_sum_coe _ hN0, ← EReal.coe_sub, sum_dev_sq, hN]
  congr 1
  field_simp
  ring

theorem var_isReal_nonneg {ι : Type*} [Fintype ι] (c : ι → EReal) (hc : ∀ i, IsReal (c i)) (N : ℝ) (hpos : 0 < N) :
    IsReal (Ideal.div (∑ i, (c i - Ideal.div (∑ i, c i) (N : EReal)) * (c i - Ideal.div (∑ i, c i) (N : EReal))) (N : EReal))
    ∧ 0 ≤ Ideal.div (∑ i, (c i - Ideal.div (∑ i, c i) (N : EReal)) * (c i - Ideal.div (∑ i, c i) (N : EReal))) (N : EReal) := by
  choose f hf using hc
  obtain rfl : c = fun i => ((f i : ℝ) : EReal) := funext hf
  rw [dev_coe f hpos.ne']
  refine ⟨IsReal.coe _, ?_⟩
  rw [EReal.coe_nonneg]
  exact mul_nonneg (Finset.sum_nonneg (fun i _ => mul_self_nonneg _)) (by positivity)

theorem rsqrt_var_isReal {v e : EReal} (hv : IsReal v) (hv0 : 0 ≤ v) (he : IsReal e) (he0 : 0 < e) : IsReal (Ideal.rsqrt (v + e)) := by
  obtain ⟨a, rfl⟩ := hv
  obtain ⟨b, rfl⟩ := he
  have ha : 0 ≤ a := by exact_mod_cast hv0
  have hb : 0 < b := by exact_mod_cast he0
  rw [← EReal.coe_add]
  refine IsReal.rsqrt_of_pos (IsReal.coe _) ?_
  exact_mod_cast (by linarith : 0 < a + b)

end Cert.ERealBN

end
-- ==== Proof.RouteLaw.lean ====
/- The routing identity of a mixture of linear operators, over the extended reals.

   A token's result is a weighted sum, over all operators n, of its images T n. The kernel forms, per operator, the weight
   (∑ k, a k · [J k = n]) + c' first and sums the weighted images once; the reference adds a uniform share
   (c · ∑ n, T n) / 32 to the images of the selected operators, ∑ k, a k · T (J k). With c' = c / 32 the two are the same
   real number; the identity needs every image and every weight to be a real number, since multiplication does not
   distribute over addition at the infinities. -/
import proofs.«430450_j5111011082884_3_alg».proof.Proof.LibERealBatchNorm
import Idealize.ShloMosaic.Lib.ValueIdx
import Mathlib.Algebra.BigOperators.Fin
import Mathlib.Algebra.BigOperators.Ring.Finset
import Mathlib.Tactic.Ring
import Mathlib.Tactic.NormNum

noncomputable section

namespace Cert.Moe

open Idealize.ShloMosaic Idealize.ShloMosaic.ValueIdx Cert.ERealBN
open scoped BigOperators

abbrev SX : Shape := ⟨3, ![8, 2048, 128]⟩
abbrev SI : Shape := ⟨3, ![8, 2048, 2]⟩
abbrev SO : Shape := ⟨3, ![32, 128, 128]⟩

/-- Token (b, s) under operator n, output feature o: the contraction of the token's 128 features with row o of the operator. -/
def proj (X : SX.Idx → EReal) (W : SO.Idx → EReal) (b : Fin 8) (s : Fin 2048) (n : Fin 32) (o : Fin 128) : EReal :=
  ∑ d : Fin 128, X (ix3 b s d) * W (ix3 n o d)

/-- The kernel's arrangement: one pass over the operators with the routing weight and the uniform share folded together. -/
def kerVal (X : SX.Idx → EReal) (A : SI.Idx → EReal) (W : SO.Idx → EReal) (J : Fin 8 → Fin 2048 → Fin 2 → Fin 32) (c' : EReal)
    (b : Fin 8) (s : Fin 2048) (o : Fin 128) : EReal :=
  ∑ n : Fin 32, ((0 + ∑ k : Fin 2, A (ix3 b s k) * (if J b s k = n then (1 : EReal) else 0)) + c') * proj X W b s n o

/-- The reference's arrangement: the uniform share of the sum over all operators, plus the selected operators' weighted images. -/
def refVal (X : SX.Idx → EReal) (A : SI.Idx → EReal) (W : SO.Idx → EReal) (J : Fin 8 → Fin 2048 → Fin 2 → Fin 32) (c n32 : EReal)
    (b : Fin 8) (s : Fin 2048) (o : Fin 128) : EReal :=
  Ideal.div (c * (0 + ∑ n : Fin 32, proj X W b s n o)) n32 + (0 + ∑ k : Fin 2, A (ix3 b s k) * proj X W b s (J b s k) o)

theorem proj_isReal {X : SX.Idx → EReal} {W : SO.Idx → EReal} (hX : ∀ i, IsReal (X i)) (hW : ∀ i, IsReal (W i))
    (b : Fin 8) (s : Fin 2048) (n : Fin 32) (o : Fin 128) : IsReal (proj X W b s n o) :=
  IsReal.sum _ _ fun d _ => IsReal.mul (hX _) (hW _)

/-- The identity in the reals. -/
theorem route_real (a : Fin 2 → ℝ) (T : Fin 32 → ℝ) (J : Fin 2 → Fin 32) (c : ℝ) :
    ∑ n : Fin 32, ((0 + ∑ k : Fin 2, a k * (if J k = n then (1 : ℝ) else 0)) + c * (1 / 32)) * T n
      = c * (0 + ∑ n : Fin 32, T n) * (1 / 32) + (0 + ∑ k : Fin 2, a k * T (J k)) := by
  have h1 : ∀ n : Fin 32, ((0 + ∑ k : Fin 2, a k * (if J k = n then (1 : ℝ) else 0)) + c * (1 / 32)) * T n
      = (∑ k : Fin 2, a k * ((if J k = n then (1 : ℝ) else 0) * T n)) + c * (1 / 32) * T n := by
    intro n
    rw [zero_add, add_mul, Finset.sum_mul]
    congr 1
    exact Finset.sum_congr rfl fun k _ => by ring
  simp_rw [h1]
  rw [Finset.sum_add_distrib, Finset.sum_comm, ← Finset.mul_sum, zero_add, zero_add]
  have h2 : ∀ k : Fin 2, ∑ n : Fin 32, a k * ((if J k = n then (1 : ℝ) else 0) * T n) = a k * T (J k) := by
    intro k
    rw [← Finset.mul_sum]
    congr 1
    simp [ite_mul, Finset.sum_ite_eq]
  simp_rw [h2]
  ring

/-- The routing identity on real-valued data: the kernel's single weighted pass is the reference's uniform share plus the
    selected images, when the folded share is the thirty-second part of the reference's coefficient. -/
theorem kerVal_eq_refVal {X : SX.Idx → EReal} {A : SI.Idx → EReal} {W : SO.Idx → EReal} (J : Fin 8 → Fin 2048 → Fin 2 → Fin 32)
    (hX : ∀ i, IsReal (X i)) (hA : ∀ i, IsReal (A i)) (hW : ∀ i, IsReal (W i)) (c : ℝ)
    (b : Fin 8) (s : Fin 2048) (o : Fin 128) :
    kerVal X A W J ((c * (1 / 32) : ℝ) : EReal) b s o = refVal X A W J (c : EReal) ((32 : ℝ) : EReal) b s o := by
  have hT : ∀ n, IsReal (proj X W b s n o) := fun n => proj_isReal hX hW b s n o
  choose T hT using hT
  choose a ha using fun k : Fin 2 => hA (ix3 b s k)
  unfold kerVal refVal
  simp only [hT, ha]
  rw [Ideal.div_coe (by norm_num : (32 : ℝ) ≠ 0)]
  have key := congrArg Real.toEReal (route_real a T (J b s) c)
  simp only [EReal.coe_add, EReal.coe_mul, EReal.coe_zero, EReal.coe_one, ← coe_sum, apply_ite Real.toEReal] at key
  simp only [EReal.coe_mul]
  exact key

end Cert.Moe

end
-- ==== Proof.RefSide.lean ====
/- The reference's result read at an index.

   At output index (b, s, o) the reference's value is the uniform share of the sum over all 32 operators of the token's
   images, divided by 32, plus the sum over the two selected operators of the routing weight times the image under the
   selected operator. The selected operator is read through jnp's take_along_axis: negative indices are wrapped, the
   wrapped index is tested against [0, 31], and the gathered row is kept where the test holds; for indices already in
   [0, 32) the wrap and the test are the identity and the gather reads row J b s k of the images. -/
import proofs.«430450_j5111011082884_3_alg».proof.Proof.RefRead
import proofs.«430450_j5111011082884_3_alg».proof.Proof.RouteLaw
import Idealize.ShloMosaic.Lib.StableHlo.Predicate
import Idealize.ShloMosaic.PureOps.Reduce

noncomputable section

namespace Cert.Moe.Ref

open Idealize.ShloMosaic Idealize.ShloMosaic.ValueIdx Cert.ReferenceIdeal Cert.ReferenceIdeal.PRead Cert.Moe

/-! ## The gather read at an index

The operand has shape [8, 2048, 32, 128], the start indices [8, 2048, 2, 1], the result [8, 2048, 2, 128]. Operand axes
0 and 1 are batching axes paired with start-indices axes 0 and 1; operand axis 2 is collapsed and is the one axis the
start index names; operand axis 3 is the one offset axis, of slice size 128. So result element (b, s, k, o) is the operand
at (b, s, c, o), where c is the start index at (b, s, k, 0) read signed and clamped into [0, 31]. -/

/-- The gather's dimension numbers. -/
abbrev rowDims := gather_S8x2048x32x128_S8x2048x2x1_S8x2048x2x128_3_2_01_01_2_3_111128

/-- With the start index at (b, s, k, 0) the word of a number j below 32, nothing is clamped and the gather reads the
    operand at (b, s, j, o). -/
theorem gather_read {α : Type} (x : S8x2048x32x128.Idx → α) (idx : IVec S8x2048x2x1 32)
    (b : Fin 8) (s : Fin 2048) (k : Fin 2) (o : Fin 128) (j : Fin 32)
    (hidx : idx (ix4 b s k 0) = BitVec.ofNat 32 j.val) :
    Host.gather rowDims x idx (ix4 b s k o) = x (ix4 b s j o) := by
  unfold Host.gather
  congr 1
  funext a
  refine Fin.ext ?_
  match a with
  | ⟨0, _⟩ =>
    -- a batching axis: no start, no offset, the result's coordinate on the paired axis
    show rowDims.start _ idx 0 + rowDims.batchCoord _ 0 + rowDims.offCoord _ 0 = b.val
    have hb : (0 : Fin S8x2048x32x128.rank) ∈ rowDims.operandBatchingDims := by decide
    rw [rowDims.start_batching _ idx 0 hb, rowDims.offCoord_eq_zero _ 0 (fun h => ((rowDims.mem_sKept 0).1 h).2 hb)]
    simp only [Nat.zero_add, Nat.add_zero]
    unfold GatherDims.batchCoord
    rw [dif_pos hb]
    rfl
  | ⟨1, _⟩ =>
    show rowDims.start _ idx 1 + rowDims.batchCoord _ 1 + rowDims.offCoord _ 1 = s.val
    have hb : (1 : Fin S8x2048x32x128.rank) ∈ rowDims.operandBatchingDims := by decide
    rw [rowDims.start_batching _ idx 1 hb, rowDims.offCoord_eq_zero _ 1 (fun h => ((rowDims.mem_sKept 1).1 h).2 hb)]
    simp only [Nat.zero_add, Nat.add_zero]
    unfold GatherDims.batchCoord
    rw [dif_pos hb]
    rfl
  | ⟨2, _⟩ =>
    -- the collapsed axis the start index names: the start index, read signed, clamped into [0, 32 - 1]
    show rowDims.start _ idx 2 + rowDims.batchCoord _ 2 + rowDims.offCoord _ 2 = j.val
    have hb : (2 : Fin S8x2048x32x128.rank) ∉ rowDims.operandBatchingDims := by decide
    have hs : (2 : Fin S8x2048x32x128.rank) ∈ rowDims.startIndexMap := by decide
    have hk : (2 : Fin S8x2048x32x128.rank) ∉ rowDims.sKept := by decide
    rw [rowDims.batchCoord_eq_zero _ 2 hb, rowDims.offCoord_eq_zero _ 2 hk]
    simp only [Nat.add_zero]
    unfold GatherDims.start
    rw [dif_pos hs]
    have hsi : rowDims.siIdx (ix4 b s k o)
        ⟨List.idxOf (2 : Fin S8x2048x32x128.rank) rowDims.startIndexMap, List.idxOf_lt_length_iff.2 hs⟩ = ix4 b s k 0 := by
      funext c; refine Fin.ext ?_
      match c with
      | ⟨0, _⟩ => rfl
      | ⟨1, _⟩ => rfl
      | ⟨2, _⟩ => rfl
      | ⟨3, _⟩ => rfl
    rw [hsi, hidx, StableHlo.Predicate.toInt_ofNat_small _ (by omega)]
    show min ((j.val : ℤ)).toNat (32 - 1) = j.val
    rw [Int.toNat_natCast]
    omega
  | ⟨3, _⟩ =>
    -- the offset axis: the result's last coordinate
    show rowDims.start _ idx 3 + rowDims.batchCoord _ 3 + rowDims.offCoord _ 3 = o.val
    have hb : (3 : Fin S8x2048x32x128.rank) ∉ rowDims.operandBatchingDims := by decide
    have hs : (3 : Fin S8x2048x32x128.rank) ∉ rowDims.startIndexMap := by decide
    have hk : (3 : Fin S8x2048x32x128.rank) ∈ rowDims.sKept := by decide
    rw [rowDims.batchCoord_eq_zero _ 3 hb]
    unfold GatherDims.start GatherDims.offCoord
    rw [dif_neg hs, dif_pos hk]
    simp only [Nat.zero_add]
    rfl

/-! ## The wrap of negative indices is the identity on [0, 32) -/

theorem idx_v18_ix4 (b : Fin 8) (s : Fin 2048) (k : Fin 2) (z : Fin 1) :
    idx_main_v18 (ix4 b s k z) = ix3 b s k :=
  funext fun a => Fin.ext (by match a with | ⟨0, _⟩ => rfl | ⟨1, _⟩ => rfl | ⟨2, _⟩ => rfl)

/-- A number below 32 is not negative as a signed word. -/
theorem slt_zero_small (j : Fin 32) : IntOp.cmpi .slt (BitVec.ofNat 32 j.val) 0#32 = 0#1 := by
  apply eq_zero_of_ne_one
  rw [StableHlo.Predicate.slt_iff_toNat (by rw [BitVec.toNat_ofNat]; omega) (by decide)]
  simp

/-- select (idx < 0) (idx + 32) idx is idx where idx is the word of a number below 32. -/
theorem wrap_read (I : IVec S8x2048x2 32) (b : Fin 8) (s : Fin 2048) (k : Fin 2) (j : Fin 32)
    (hI : I (ix3 b s k) = BitVec.ofNat 32 j.val) :
    val_main_call2_v4 (F := Ideal) I (ix4 b s k 0) = BitVec.ofNat 32 j.val := by
  rw [val_main_call2_v4_apply, val_main_call2_v1_apply, val_main_v18_apply, val_main_call2_v0_apply,
    val_main_call2_c_apply, idx_v18_ix4, hI, slt_zero_small, select_zero]

/-! ## The range test 0 ≤ idx ≤ 31 holds on [0, 32), and so does its conjunction along the last axis -/

theorem sge_zero_small (j : Fin 32) : IntOp.cmpi .sge (BitVec.ofNat 32 j.val) 0#32 = 1#1 := by
  rw [StableHlo.Predicate.sge_iff_toNat (by rw [BitVec.toNat_ofNat]; omega) (by decide)]
  simp

theorem sle_31_small (j : Fin 32) : IntOp.cmpi .sle (BitVec.ofNat 32 j.val) 31#32 = 1#1 := by
  rw [StableHlo.Predicate.sle_iff_toNat (by rw [BitVec.toNat_ofNat]; omega) (by decide)]
  rw [BitVec.toNat_ofNat]
  show j.val % 2 ^ 32 ≤ 31
  omega

/-- Both comparisons of the wrapped index hold, so their conjunction is the bit 1. -/
theorem range_read (I : IVec S8x2048x2 32) (b : Fin 8) (s : Fin 2048) (k : Fin 2) (j : Fin 32)
    (hI : I (ix3 b s k) = BitVec.ofNat 32 j.val) :
    val_main_call2_v10 (F := Ideal) I (ix4 b s k 0) = 1#1 := by
  rw [val_main_call2_v10_apply, val_main_call2_v6_apply, val_main_call2_v9_apply, wrap_read I b s k j hI,
    val_main_call2_v5_apply, val_main_call2_c_2_apply, val_main_call2_v8_apply, val_main_call2_v7_apply,
    val_main_call2_c_1_apply, sge_zero_small, sle_31_small]
  rfl

/-- The same at any coordinate of the last axis, which has one. -/
theorem range_read' (I : IVec S8x2048x2 32) (b : Fin 8) (s : Fin 2048) (k : Fin 2) (z : Fin 1) (j : Fin 32)
    (hI : I (ix3 b s k) = BitVec.ofNat 32 j.val) :
    val_main_call2_v10 (F := Ideal) I (ix4 b s k z) = 1#1 := by
  obtain rfl : z = 0 := Subsingleton.elim _ _
  exact range_read I b s k j hI

/-- A left fold by conjunction from the bit 1 over bits that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by conjunction, from an initial value 1, of an array whose every element is 1 is 1 at every index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-- The reduced range test is 1 everywhere when every index is the word of a number below 32. -/
theorem all_read (I : IVec S8x2048x2 32) (J : Fin 8 → Fin 2048 → Fin 2 → Fin 32)
    (hJ : ∀ b s k, I (ix3 b s k) = BitVec.ofNat 32 (J b s k).val) (j : S8x2048x2.Idx) :
    val_main_call2_v11 (F := Ideal) I j = 1#1 := by
  unfold val_main_call2_v11
  refine reduce_andi_one _ _ _ _ rfl (fun (i : S8x2048x2x1.Idx) => ?_) j
  rw [eq_ix4 i]
  exact range_read' I (i 0) (i 1) (i 2) (i 3) (J (i 0) (i 1) (i 2)) (hJ _ _ _)

/-! ## The images, and the selected ones -/

/-- The contraction at (b, s, n, o) is the image of token (b, s) under operator n at output feature o. -/
theorem v16_read (X : FVec Ideal S8x2048x128 .f32) (O : FVec Ideal S32x128x128 .f32)
    (b : Fin 8) (s : Fin 2048) (n : Fin 32) (o : Fin 128) :
    val_main_v16 (F := Ideal) X O (ix4 b s n o) = proj X (val_main_v15 (F := Ideal) O) b s n o := by
  rw [val_main_v16_apply]
  unfold proj
  refine Finset.sum_congr rfl fun d _ => ?_
  have el : lidx_main_v16 (ix4 b s n o) d = ix3 b s d :=
    funext fun a => Fin.ext (by match a with | ⟨0, _⟩ => rfl | ⟨1, _⟩ => rfl | ⟨2, _⟩ => rfl)
  have er : ridx_main_v16 (ix4 b s n o) d = ix3 n o d :=
    funext fun a => Fin.ext (by match a with | ⟨0, _⟩ => rfl | ⟨1, _⟩ => rfl | ⟨2, _⟩ => rfl)
  rw [el, er]

/-- take_along_axis at (b, s, k, o): the range test holds, so the gathered value is kept, and it is the image under the
    selected operator J b s k. -/
theorem v19_read (X : FVec Ideal S8x2048x128 .f32) (I : IVec S8x2048x2 32) (O : FVec Ideal S32x128x128 .f32)
    (J : Fin 8 → Fin 2048 → Fin 2 → Fin 32) (hJ : ∀ b s k, I (ix3 b s k) = BitVec.ofNat 32 (J b s k).val)
    (b : Fin 8) (s : Fin 2048) (k : Fin 2) (o : Fin 128) :
    val_main_v19 (F := Ideal) X I O (ix4 b s k o) = proj X (val_main_v15 (F := Ideal) O) b s (J b s k) o := by
  rw [val_main_v19_apply, val_main_call2_v13_apply, all_read I J hJ, select_one]
  unfold val_main_call2_v12
  rw [gather_read _ _ b s k o (J b s k) (wrap_read I b s k (J b s k) (hJ b s k)), v16_read]

theorem ref_value (X : FVec Ideal S8x2048x128 .f32) (I : IVec S8x2048x2 32) (A : FVec Ideal S8x2048x2 .f32) (O : FVec Ideal S32x128x128 .f32)
    (J : Fin 8 → Fin 2048 → Fin 2 → Fin 32) (hJ : ∀ b s k, I (ix3 b s k) = BitVec.ofNat 32 (J b s k).val)
    (b : Fin 8) (s : Fin 2048) (o : Fin 128) :
    val_main_v28 (F := Ideal) X I A O (ix3 b s o)
      = refVal X A (val_main_v15 (F := Ideal) O) J (Ideal.ofBits .f32 0x3727C5AC#32) (Ideal.ofBits .f32 0x42000000#32) b s o := by
  -- the sum over all 32 operators of the token's images, from the initial value 0
  have h17 : val_main_v17 (F := Ideal) X O (ix3 b s o)
      = 0 + ∑ n : Fin 32, proj X (val_main_v15 (F := Ideal) O) b s n o := by
    rw [val_main_v17_apply, val_main_cst_4_apply]
    show Ideal.ofBits .f32 0x00000000#32 + _ = _
    rw [Ideal.ofBits_zero_f32]
    refine congrArg (0 + ·) (Finset.sum_congr rfl fun n _ => ?_)
    have e : idx_main_v17 (ix3 b s o) n = ix4 b s n o :=
      funext fun a => Fin.ext (by match a with | ⟨0, _⟩ => rfl | ⟨1, _⟩ => rfl | ⟨2, _⟩ => rfl | ⟨3, _⟩ => rfl)
    rw [e, v16_read]
  -- the sum over the two selected operators of the routing weight times the selected image, from the initial value 0
  have h23 : val_main_v23 (F := Ideal) X I A O (ix3 b s o)
      = 0 + ∑ k : Fin 2, A (ix3 b s k) * proj X (val_main_v15 (F := Ideal) O) b s (J b s k) o := by
    rw [val_main_v23_apply, val_main_cst_5_apply]
    show Ideal.ofBits .f32 0x00000000#32 + _ = _
    rw [Ideal.ofBits_zero_f32]
    refine congrArg (0 + ·) (Finset.sum_congr rfl fun k _ => ?_)
    have e : idx_main_v23 (ix3 b s o) k = ix4 b s k o :=
      funext fun a => Fin.ext (by match a with | ⟨0, _⟩ => rfl | ⟨1, _⟩ => rfl | ⟨2, _⟩ => rfl | ⟨3, _⟩ => rfl)
    have e2 : idx_main_v20 (idx_main_v21 (ix4 b s k o)) = ix3 b s k :=
      funext fun a => Fin.ext (by match a with | ⟨0, _⟩ => rfl | ⟨1, _⟩ => rfl | ⟨2, _⟩ => rfl)
    rw [e, val_main_v22_apply, val_main_v21_apply, val_main_v20_apply, e2, v19_read X I O J hJ]
    rfl
  rw [val_main_v28_apply, val_main_v27_apply, val_main_v25_apply, val_main_v24_apply, val_main_cst_6_apply,
    val_main_v26_apply, val_main_cst_7_apply, h17, h23]
  rfl

end Cert.Moe.Ref

end
-- ==== Proof.OpsSide.lean ====
/- The effective operators. Both programs scale each operator by s n = max (mean |O n| , ε) and quantize its entries to
   q = min 1 (max (-1) (round (O / s))); the kernel uses q · s, the reference (O + (q - O)) · s. For real O the two agree, and
   every entry is a real number: q lies in [-1, 1] whatever the rounding gives, and s is a maximum of two reals. -/
import proofs.«430450_j5111011082884_3_alg».proof.Proof.RefRead
import proofs.«430450_j5111011082884_3_alg».proof.Proof.LibERealBatchNorm
import Idealize.ShloMosaic.Lib.IdealHost

noncomputable section

namespace Cert.Moe.Ops

open Idealize.ShloMosaic Idealize.ShloMosaic.ValueIdx Cert.ReferenceIdeal Cert.ReferenceIdeal.PRead Cert.ERealBN

/-- Adding to a real number `a` the difference `q - a` gives `q` back, whatever extended real `q` is: the real
    `a` cancels against its negative, and no `⊤ + ⊥` can arise from it. -/
private theorem add_sub_cancel_real (a : ℝ) (q : EReal) : (a : EReal) + (q - (a : EReal)) = q := by
  rw [sub_eq_add_neg, add_left_comm, ← EReal.coe_neg, ← EReal.coe_add, add_neg_cancel, EReal.coe_zero, add_zero]

/-- The negative of a real number is a real number. -/
private theorem isReal_neg {x : EReal} (hx : IsReal x) : IsReal (-x) := by
  obtain ⟨r, rfl⟩ := hx
  exact ⟨-r, (EReal.coe_neg r).symm⟩

/-- An extended real clipped to `[-1, 1]` is a real number: it lies between two reals, so it is neither infinity. -/
private theorem isReal_clip (y : EReal) : IsReal (min ((1 : ℝ) : EReal) (max ((-1 : ℝ) : EReal) y)) := by
  have hlo : ((-1 : ℝ) : EReal) ≤ min ((1 : ℝ) : EReal) (max ((-1 : ℝ) : EReal) y) :=
    le_min (EReal.coe_le_coe_iff.mpr (by norm_num)) (le_max_left _ _)
  have hhi : min ((1 : ℝ) : EReal) (max ((-1 : ℝ) : EReal) y) ≤ ((1 : ℝ) : EReal) := min_le_left _ _
  have hbot : min ((1 : ℝ) : EReal) (max ((-1 : ℝ) : EReal) y) ≠ ⊥ :=
    ne_of_gt (lt_of_lt_of_le (EReal.bot_lt_coe _) hlo)
  have htop : min ((1 : ℝ) : EReal) (max ((-1 : ℝ) : EReal) y) ≠ ⊤ :=
    ne_of_lt (lt_of_le_of_lt hhi (EReal.coe_lt_top _))
  exact ⟨_, (EReal.coe_toReal htop hbot).symm⟩

/-- The pattern `0xBF800000` is the real minus one. -/
private theorem ofBits_neg_one : Ideal.ofBits .f32 0xBF800000#32 = ((-1 : ℝ) : EReal) := by
  simp [Ideal.ofBits, Ideal.ieee, -EReal.coe_mul, -EReal.coe_neg]; norm_num

/-- The pattern `0x46800000` is the real `16384 = 128 · 128`, the number of entries of one operator. -/
private theorem ofBits_16384 : Ideal.ofBits .f32 0x46800000#32 = ((16384 : ℝ) : EReal) := by
  simp [Ideal.ofBits, Ideal.ieee, -EReal.coe_mul]; norm_num

/-- The quantized entry is a real number, whatever the rounding of the quotient gives. -/
theorem q_isReal (O : FVec Ideal S32x128x128 .f32) (i : S32x128x128.Idx) :
    IsReal (val_main_v10 (F := Ideal) O i) := by
  rw [val_main_v10_apply, val_main_call1_v2_apply, val_main_call1_v4_apply, val_main_call1_v3_apply,
    val_main_cst_3_apply, val_main_call1_v1_apply, val_main_call1_v0_apply, val_main_cst_2_apply]
  simp only [Ideal.minimumf_def, Ideal.maximumf_def, Ideal.ofBits_def]
  rw [ofBits_one, ofBits_neg_one]
  exact isReal_clip _

/-- The scale of an operator with real entries is a real number: the maximum of the mean of the absolute values, a real
    sum divided by `16384`, and the real `ε`. -/
theorem s_isReal (O : FVec Ideal S32x128x128 .f32) (hO : ∀ i, IsReal (O i)) (n : S32.Idx) :
    IsReal (val_main_v5 (F := Ideal) O n) := by
  obtain ⟨e, _, he⟩ := ofBits_eps_pos
  rw [val_main_v5_apply, val_main_v3_apply, val_main_v2_apply, val_main_cst_0_apply, val_main_v4_apply,
    val_main_cst_1_apply]
  simp only [Ideal.maximumf_def, Ideal.hostDivf_def, Ideal.ofBits_def]
  rw [he, ofBits_16384]
  refine IsReal.max (IsReal.div_coe ?_ (by norm_num)) (IsReal.coe _)
  unfold val_main_v1
  rw [hostReduceAdd_apply]
  unfold Ideal.hostReduceAdd
  refine IsReal.add ?_ (IsReal.sum _ _ ?_)
  · rw [val_main_cst_apply, Ideal.ofBits_def, ofBits_zero]; exact IsReal.zero
  · intro j _
    rw [val_main_v0_apply, Ideal.hostAbsf_def, Ideal.absf_def]
    exact IsReal.max (hO j) (isReal_neg (hO j))

theorem weff_ref_eq (O : FVec Ideal S32x128x128 .f32) (hO : ∀ i, IsReal (O i)) (i : S32x128x128.Idx) :
    val_main_v15 (F := Ideal) O i = val_main_v10 (F := Ideal) O i * val_main_v14 (F := Ideal) O i := by
  obtain ⟨a, ha⟩ := hO i
  rw [val_main_v15_apply, val_main_v12_apply, val_main_v11_apply]
  simp only [Ideal.mulf_def, Ideal.addf_def, Ideal.subf_def]
  rw [ha, add_sub_cancel_real]

theorem weff_isReal (O : FVec Ideal S32x128x128 .f32) (hO : ∀ i, IsReal (O i)) (i : S32x128x128.Idx) :
    IsReal (val_main_v10 (F := Ideal) O i * val_main_v14 (F := Ideal) O i) := by
  refine IsReal.mul (q_isReal O i) ?_
  rw [val_main_v14_apply, val_main_v13_apply]
  exact s_isReal O hO _

end Cert.Moe.Ops

end
-- ==== Proof.PreSide.lean ====
/- What the precondition says of the inputs: every entry of the three float arrays is a real number, and every routing
   index lies in [0, 32). -/
import proofs.«430450_j5111011082884_3_alg».proof.Pre_finite_inputs
import proofs.«430450_j5111011082884_3_alg».proof.Proof.Gen.Pre_finite_inputs
import proofs.«430450_j5111011082884_3_alg».proof.Proof.LibERealBatchNorm
import Idealize.ShloMosaic.Lib.ReduceAll
import Idealize.ShloMosaic.Lib.StableHlo.Predicate
import Idealize.ShloMosaic.Lib.ValueIdx

noncomputable section

namespace Cert.Moe.Pre

open Idealize.ShloMosaic Idealize.ShloMosaic.ValueIdx Cert.Pre_finite_inputs Cert.ERealBN

/-- The pattern 0x7F800000 (sign 0, exponent all ones, fraction 0) denotes plus infinity. -/
theorem ofBits_inf : Ideal.ofBits .f32 0x7F800000#32 = (⊤ : EReal) := by
  simp [Ideal.ofBits, Ideal.ieee]

/-- An extended real whose absolute value max x (-x) lies strictly below plus infinity is a real number: at either
    infinity the absolute value is plus infinity itself. -/
theorem isReal_of_abs_lt_top (x : EReal) (h : max x (-x) < ⊤) : IsReal x := by
  induction x using EReal.rec with
  | bot => simp at h
  | coe r => exact ⟨r, rfl⟩
  | top => simp at h

/-- The element test of the float conjuncts, |x| < +inf as a one-bit word, read back. -/
theorem isReal_of_test (x : Ideal .f32)
    (h : FloatOps.cmpf .olt (FloatOps.hostAbsf x) (FloatOps.ofBits (F := Ideal) .f32 0x7F800000#32) = 1#1) : IsReal x := by
  refine isReal_of_abs_lt_top x ?_
  -- at the extended reals the absolute value is max x (-x) and the ordered comparison is the strict order
  have e : FloatOps.ofBits (F := Ideal) .f32 0x7F800000#32 = (⊤ : EReal) := ofBits_inf
  rw [e] at h
  change Ideal.cmp .olt (max x (-x)) ⊤ = 1#1 at h
  simpa [Ideal.cmp, StableHlo.Predicate.ofBool_eq_one_iff] using h

/-- A 32-bit word that is at least 0 and below 32 read signed is below 32 read unsigned: a word with its top bit set
    reads negative. -/
theorem toNat_lt_of_signed (w : BitVec 32) (h0 : IntOp.cmpi .sge w 0#32 = 1#1) (h1 : IntOp.cmpi .slt w 32#32 = 1#1) :
    w.toNat < 32 := by
  rw [IntOp.cmpi_sge] at h0
  rw [IntOp.cmpi_slt] at h1
  have a0 : (0#32 : BitVec 32).toInt = 0 := by decide
  have a32 : (32#32 : BitVec 32).toInt = 32 := by decide
  rw [a0] at h0
  rw [a32] at h1
  rw [BitVec.toInt_eq_toNat_cond] at h0 h1
  have hlt := w.isLt
  split at h1 <;> omega

theorem pre_decode [Cert.Pre_finite_inputs.Facts] (X : FVec Ideal S8x2048x128 .f32) (I : IVec S8x2048x2 32) (A : FVec Ideal S8x2048x2 .f32)
    (O : FVec Ideal S32x128x128 .f32) (h : Cert.Pre_finite_inputs.fn (F := Ideal) X I A O = fun _ => 1#1) :
    (∀ i, IsReal (X i)) ∧ (∀ i, IsReal (A i)) ∧ (∀ i, IsReal (O i)) ∧ (∀ i, (I i).toNat < 32) := by
  -- the result has one index; there the function is the conjunction of the four tests
  have h0 := congrFun h ValueIdx.ix0
  dsimp only [Cert.Pre_finite_inputs.fn, Cert.Pre_finite_inputs.fn_part1] at h0
  haveI : Subsingleton S_.Idx := ⟨fun a b => funext fun d => d.elim0⟩
  simp only [andi, IntOp.andi_eq_one] at h0
  obtain ⟨⟨⟨hX, hA⟩, hO⟩, hI⟩ := h0
  refine ⟨fun i => ?_, fun i => ?_, fun i => ?_, fun i => ?_⟩
  · have e := Host.reduce_andi_all _ _ _ _ _ hX i
    exact isReal_of_test (X i) e
  · have e := Host.reduce_andi_all _ _ _ _ _ hA i
    exact isReal_of_test (A i) e
  · have e := Host.reduce_andi_all _ _ _ _ _ hO i
    exact isReal_of_test (O i) e
  · have e := Host.reduce_andi_all _ _ _ _ _ hI i
    change IntOp.andi (IntOp.cmpi .sge (I i) 0#32) (IntOp.cmpi .slt (I i) 32#32) = 1#1 at e
    rw [IntOp.andi_eq_one] at e
    exact toNat_lt_of_signed (I i) e.1 e.2

end Cert.Moe.Pre

end
-- ==== Proof.Consts.lean ====
/- The three float constants of the uniform share, as the real numbers their patterns denote. The reference multiplies by
   c = 0x3727C5AC (the f32 nearest 1e-5: 10995116 · 2⁻⁴⁰) and divides by 32 = 0x42000000; the kernel adds c' = 0x34A7C5AC, the
   same fraction with the exponent five lower: c' = c / 32 exactly. -/
import Idealize.ShloMosaic.PureOps.Ideal
import Mathlib.Tactic.NormNum
import Mathlib.Tactic.Ring

noncomputable section

namespace Cert.Moe

open Idealize.ShloMosaic

/-- The reference's coefficient of the uniform share. -/
def cLeak : ℝ := 10995116 * (2 : ℝ) ^ (-40 : Int)

theorem ofBits_leak : Ideal.ofBits .f32 0x3727C5AC#32 = ((cLeak : ℝ) : EReal) := by
  unfold cLeak
  simp [Ideal.ofBits, Ideal.ieee, -EReal.coe_mul]

theorem ofBits_leak32 : Ideal.ofBits .f32 0x34A7C5AC#32 = ((cLeak * (1 / 32) : ℝ) : EReal) := by
  unfold cLeak
  simp [Ideal.ofBits, Ideal.ieee, -EReal.coe_mul]
  norm_num

theorem ofBits_32 : Ideal.ofBits .f32 0x42000000#32 = ((32 : ℝ) : EReal) := by
  simp [Ideal.ofBits, Ideal.ieee, -EReal.coe_mul]; norm_num

end Cert.Moe

end
-- ==== Proof.Bridge.lean ====
/- The two programs compute one function.

   Under the precondition every token, routing weight and operator entry is a real number and every selection names one of
   the 32 operators. The kernel's result at (b, s, o) is one weighted pass over the operators (the routing table already
   carries the uniform share), the reference's the uniform share of the sum over all operators plus the selected operators'
   weighted images; the effective operators of the two programs agree on real data and are real; the folded share is the
   thirty-second part of the reference's coefficient. The routing identity joins the two. -/
import proofs.«430450_j5111011082884_3_alg».proof.Defs
import proofs.«430450_j5111011082884_3_alg».proof.Proof.Gen.Pre_finite_inputs
import proofs.«430450_j5111011082884_3_alg».proof.Proof.KerRun
import proofs.«430450_j5111011082884_3_alg».proof.Proof.KerHost
import proofs.«430450_j5111011082884_3_alg».proof.Proof.RefSide
import proofs.«430450_j5111011082884_3_alg».proof.Proof.OpsSide
import proofs.«430450_j5111011082884_3_alg».proof.Proof.PreSide
import proofs.«430450_j5111011082884_3_alg».proof.Proof.RouteLaw
import proofs.«430450_j5111011082884_3_alg».proof.Proof.Consts

noncomputable section

namespace Cert.Moe.Bridge

open Idealize.ShloMosaic Idealize.ShloMosaic.TcCoe Idealize.SL.Sem Idealize.ShloMosaic.ValueIdx
open Cert.KernelIdeal Cert.KernelIdeal.Gen Cert.Moe Cert.Moe.Ker Cert.ERealBN
open scoped BigOperators

variable (m : (ℓ : Loc nD τ sig) → Buf (Elt Ideal) ℓ)

/-- The effective operators on core c: the quantized entries times the operator's scale. -/
def weff (c : Dev nD) : SO.Idx → EReal := fun i =>
  Cert.ReferenceIdeal.PRead.val_main_v10 (F := Ideal) (argO m c) i * Cert.ReferenceIdeal.PRead.val_main_v14 (F := Ideal) (argO m c) i

/-- The kernel's result at an entry is its single weighted pass over the operators. -/
theorem kerRes_apply (c : Dev nD) (J : Fin 8 → Fin 2048 → Fin 2 → Fin 32)
    (hJ : ∀ b s k, argI m c (ix3 b s k) = BitVec.ofNat 32 (J b s k).val) (b : Fin 8) (s : Fin 2048) (o : Fin 128) :
    kerRes m c (ix3 b s o) = kerVal (argX m c) (argA m c) (weff m c) J (Ideal.ofBits .f32 0x34A7C5AC#32) b s o := by
  show wholeOut (arrTok m c) (arrSlab m c) (arrRoute m c) (ix2 (row b s) o) = _
  unfold wholeOut kerVal proj
  refine Finset.sum_congr rfl fun n _ => ?_
  show arrRoute m c (ix2 (row b s) n) * _ = _
  rw [V_route m c J hJ b s n]
  congr 1
  refine Finset.sum_congr rfl fun d _ => ?_
  show arrTok m c (ix2 (row b s) d) * arrSlab m c (ix2 d (col n o)) = _
  rw [V_tokens m c b s d, V_slab m c d n o]
  rfl

/-- Under the precondition, the kernel's result is the reference's result term of the same arguments. -/
theorem result_eq (hpre : Cert.Pre_KernelIdeal m) (c : Dev nD) :
    kerRes m c = Cert.ReferenceIdeal.PRead.val_main_v28 (F := Ideal) (argX m c) (argI m c) (argA m c) (argO m c) := by
  obtain ⟨hX, hA, hO, hI⟩ := Cert.Moe.Pre.pre_decode (argX m c) (argI m c) (argA m c) (argO m c) (hpre c)
  let J : Fin 8 → Fin 2048 → Fin 2 → Fin 32 := fun b s k => ⟨(argI m c (ix3 b s k)).toNat, hI _⟩
  have hJ : ∀ b s k, argI m c (ix3 b s k) = BitVec.ofNat 32 (J b s k).val := fun b s k => by
    show argI m c (ix3 b s k) = BitVec.ofNat 32 (argI m c (ix3 b s k)).toNat
    rw [BitVec.ofNat_toNat, BitVec.setWidth_eq]
  funext i
  obtain ⟨b, s, o, rfl⟩ : ∃ (b : Fin 8) (s : Fin 2048) (o : Fin 128), i = (ix3 b s o : S8x2048x128.Idx) := ⟨i 0, i 1, i 2, eq_ix3 i⟩
  have hW : Cert.ReferenceIdeal.PRead.val_main_v15 (F := Ideal) (argO m c) = weff m c :=
    funext fun i => Cert.Moe.Ops.weff_ref_eq (argO m c) hO i
  have h2 : kerVal (argX m c) (argA m c) (weff m c) J ((Cert.Moe.cLeak * (1 / 32) : ℝ) : EReal) b s o
      = refVal (argX m c) (argA m c) (weff m c) J (Cert.Moe.cLeak : EReal) ((32 : ℝ) : EReal) b s o :=
    kerVal_eq_refVal (W := weff m c) J hX hA (fun i => Cert.Moe.Ops.weff_isReal (argO m c) hO i) Cert.Moe.cLeak b s o
  rw [kerRes_apply m c J hJ b s o, Cert.Moe.ofBits_leak32, h2,
    Cert.Moe.Ref.ref_value (argX m c) (argI m c) (argA m c) (argO m c) J hJ b s o, hW,
    Cert.Moe.ofBits_leak, Cert.Moe.ofBits_32]

end Cert.Moe.Bridge

end
-- ==== Proof.lean ====
/- A mixture of 32 quantized linear operators applied to 8 × 2048 tokens of 128 features, each token routed to two
   operators: the kernel against its jnp reference, over the extended reals, for finite inputs whose routing indices name
   operators (0 ≤ index < 32).

   Both programs quantize every operator to q · s with s = max (mean |O|, ε) and q = clip (round (O / s), -1, 1); the
   reference writes the quantized entries as O + (q - O), which is q for real O. The reference forms every token's image
   under every operator, adds the share c · (sum over all operators) / 32 and the two selected images weighted by the
   routing weights; the kernel first builds a dense routing table whose entry for operator n is the sum of the routing
   weights of the selections that name n plus the share c / 32, and then makes one weighted pass over the operators, in
   eight groups of four, tile by tile of 2048 tokens. Every quantity involved is a real number under the precondition, and
   there the two arrangements are one real number (the routing identity). The three frames are the generated runs;
   the idealization rewrote nothing. -/
import proofs.«430450_j5111011082884_3_alg».proof.Defs
import proofs.«430450_j5111011082884_3_alg».proof.Proof.Gen.Kernel
import proofs.«430450_j5111011082884_3_alg».proof.Proof.Gen.Kernel.Skeleton
import proofs.«430450_j5111011082884_3_alg».proof.Proof.Gen.Kernel.Launch
import proofs.«430450_j5111011082884_3_alg».proof.Proof.Gen.Kernel.Points
import proofs.«430450_j5111011082884_3_alg».proof.Proof.Gen.Kernel.Frame
import proofs.«430450_j5111011082884_3_alg».proof.Proof.Gen.KernelIdeal
import proofs.«430450_j5111011082884_3_alg».proof.Proof.Gen.KernelIdeal.Skeleton
import proofs.«430450_j5111011082884_3_alg».proof.Proof.Gen.KernelIdeal.Launch
import proofs.«430450_j5111011082884_3_alg».proof.Proof.Gen.KernelIdeal.Points
import proofs.«430450_j5111011082884_3_alg».proof.Proof.Gen.KernelIdeal.Frame
import proofs.«430450_j5111011082884_3_alg».proof.Proof.Gen.ReferenceIdeal
import proofs.«430450_j5111011082884_3_alg».proof.Proof.Gen.Pre_finite_inputs
import proofs.«430450_j5111011082884_3_alg».proof.Proof.RefRun
import proofs.«430450_j5111011082884_3_alg».proof.Proof.RefRead
import proofs.«430450_j5111011082884_3_alg».proof.Proof.KerRun
import proofs.«430450_j5111011082884_3_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.PValue.run (F := Ideal) m ρ)

/-- The idealization rewrote no operation. -/
theorem preserves : Cert.preserves_Kernel_KernelIdeal := trivial

/-- From memories agreeing on the arguments both programs end with the same result: the kernel's run ends at its weighted
    pass over the operators, the reference's at its result term of the same arguments, and under the precondition these
    are one function. -/
theorem algebraic : Cert.algebraic_KernelIdeal_ReferenceIdeal := by
  intro m ρ m' ρ' hpre hagree
  refine ⟨fun c => Cert.Moe.Ker.kerRes m c, Cert.Moe.Ker.ker_run m ρ, ?_⟩
  refine (θ_run Cert.ReferenceIdeal.defs _ _).mono (fun _ h c => ⟨(h c).1.trans ?_, (h c).2⟩)
    (Cert.ReferenceIdeal.PValue.run (F := Ideal) m' ρ')
  rw [Cert.ReferenceIdeal.PRead.val_main_v28_eq, (hagree c).1, (hagree c).2.1, (hagree c).2.2.1, (hagree c).2.2.2]
  exact (Cert.Moe.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
